-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024 : Shape := ⟨1, ![1024]⟩
abbrev S_ : Shape := ⟨0, ![]⟩
abbrev S1034x1034 : Shape := ⟨2, ![1034, 1034]⟩
abbrev S1034 : Shape := ⟨1, ![1034]⟩
abbrev S3x1034 : Shape := ⟨2, ![3, 1034]⟩
abbrev S3 : Shape := ⟨1, ![3]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  reducesTo_S_S_d : S_.ReducesTo [] S_
  bcast_S_S1034x1034 : S_.BroadcastsInDim S1034x1034 (![] : Fin 0 → Fin S1034x1034.rank)
  reducesTo_S1034x1034_S_d0_1 : S1034x1034.ReducesTo [0, 1] S_
  bcast_S_S1034 : S_.BroadcastsInDim S1034 (![] : Fin 0 → Fin S1034.rank)
  reducesTo_S1034_S_d0 : S1034.ReducesTo [0] S_
  bcast_S_S3x1034 : S_.BroadcastsInDim S3x1034 (![] : Fin 0 → Fin S3x1034.rank)
  reducesTo_S3x1034_S_d0_1 : S3x1034.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S3 .f32) (main_v32 : IVec S_ 1) (main_v33 : FVec F S3x1034 .f32) : IVec S_ 1 :=
  let main_cst_12 : FVec F S_ .f32 := constant S_ .f32 0x7F800000#32
  let main_v34 : FVec F S3x1034 .f32 := broadcastInDim S3x1034 ![] bcast_S_S3x1034 main_cst_12
  let main_v35 : IVec S3x1034 1 := cmpf .olt main_v33 main_v34
  let main_c_13 : IVec S_ 1 := constantI S_ 1 1#1
  let main_v36 : IVec S_ 1 := (fun x v => Host.reduce IntOp.andi x v reducesTo_S3x1034_S_d0_1 h_S_) main_v35 main_c_13
  let main_v37 : IVec S_ 1 := andi main_v32 main_v36
  let main_v38 : FVec F S3 .f32 := Host.absf main_arg8
  let main_cst_14 : FVec F S_ .f32 := constant S_ .f32 0x7F800000#32
  let main_v39 : FVec F S3 .f32 := broadcastInDim S3 ![] bcast_S_S3 main_cst_14
  let main_v40 : IVec S3 1 := cmpf .olt main_v38 main_v39
  let main_c_15 : IVec S_ 1 := constantI S_ 1 1#1
  let main_v41 : IVec S_ 1 := (fun x v => Host.reduce IntOp.andi x v reducesTo_S3_S_d0 h_S_) main_v40 main_c_15
  let main_v42 : IVec S_ 1 := andi main_v37 main_v41
  main_v42

def fn_part1 {F : FTy → Type} [FloatOps F] (main_arg4 : FVec F S_ .f32) (main_arg5 : FVec F S1034x1034 .f32) (main_arg6 : FVec F S1034 .f32) (main_arg7 : FVec F S3x1034 .f32) (main_arg8 : FVec F S3 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S1034x1034 .f32 := Host.absf main_arg5
  let main_cst_8 : FVec F S_ .f32 := constant S_ .f32 0x7F800000#32
  let main_v24 : FVec F S1034x1034 .f32 := broadcastInDim S1034x1034 ![] bcast_S_S1034x1034 main_cst_8
  let main_v25 : IVec S1034x1034 1 := cmpf .olt main_v23 main_v24
  let main_c_9 : IVec S_ 1 := constantI S_ 1 1#1
  let main_v26 : IVec S_ 1 := (fun x v => Host.reduce IntOp.andi x v reducesTo_S1034x1034_S_d0_1 h_S_) main_v25 main_c_9
  let main_v27 : IVec S_ 1 := andi main_v22 main_v26
  let main_v28 : FVec F S1034 .f32 := Host.absf main_arg6
  let main_cst_10 : FVec F S_ .f32 := constant S_ .f32 0x7F800000#32
  let main_v29 : FVec F S1034 .f32 := broadcastInDim S1034 ![] bcast_S_S1034 main_cst_10
  let main_v30 : IVec S1034 1 := cmpf .olt main_v28 main_v29
  let main_c_11 : IVec S_ 1 := constantI S_ 1 1#1
  let main_v31 : IVec S_ 1 := (fun x v => Host.reduce IntOp.andi x v reducesTo_S1034_S_d0 h_S_) main_v30 main_c_11
  let main_v32 : IVec S_ 1 := andi main_v27 main_v31
  let main_v33 : FVec F S3x1034 .f32 := Host.absf main_arg7
  fn_part2 (F := F) main_arg8 main_v32 main_v33

def fn {F : FTy → Type} [FloatOps F] (main_arg0 : FVec F S16384x1024 .f32) (main_arg1 : FVec F S16384x1024 .f32) (main_arg2 : FVec F S16384x1024 .f32) (main_arg3 : FVec F S1024 .f32) (main_arg4 : FVec F S_ .f32) (main_arg5 : FVec F S1034x1034 .f32) (main_arg6 : FVec F S1034 .f32) (main_arg7 : FVec F S3x1034 .f32) (main_arg8 : FVec F S3 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Kernel.lean ====
abbrev S16384x1024 : Shape := ⟨2, ![16384, 1024]⟩
abbrev S1024 : Shape := ⟨1, ![1024]⟩
abbrev S_ : Shape := ⟨0, ![]⟩
abbrev S1034x1034 : Shape := ⟨2, ![1034, 1034]⟩
abbrev S1034 : Shape := ⟨1, ![1034]⟩
abbrev S3x1034 : Shape := ⟨2, ![3, 1034]⟩
abbrev S3 : Shape := ⟨1, ![3]⟩
abbrev S1x1024 : Shape := ⟨2, ![1, 1024]⟩
abbrev S1024x1034 : Shape := ⟨2, ![1024, 1034]⟩
abbrev S10x1034 : Shape := ⟨2, ![10, 1034]⟩
abbrev S1034x3 : Shape := ⟨2, ![1034, 3]⟩
abbrev S1x1034 : Shape := ⟨2, ![1, 1034]⟩
abbrev S1x3 : Shape := ⟨2, ![1, 3]⟩
abbrev S16384x3 : Shape := ⟨2, ![16384, 3]⟩
abbrev S512x1024 : Shape := ⟨2, ![512, 1024]⟩
abbrev S512x3 : Shape := ⟨2, ![512, 3]⟩
abbrev S512 : Shape := ⟨1, ![512]⟩
abbrev S512x1 : Shape := ⟨2, ![512, 1]⟩
abbrev S512x10 : Shape := ⟨2, ![512, 10]⟩
abbrev S512x1034 : Shape := ⟨2, ![512, 1034]⟩

abbrev nBuf : Space → Nat
  | .hbm => 30
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S_, .f32⟩
  | .hbm, ⟨5, _⟩ => ⟨S1034x1034, .f32⟩
  | .hbm, ⟨6, _⟩ => ⟨S1034, .f32⟩
  | .hbm, ⟨7, _⟩ => ⟨S3x1034, .f32⟩
  | .hbm, ⟨8, _⟩ => ⟨S3, .f32⟩
  | .hbm, ⟨9, _⟩ => ⟨S1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1x1024, .f32⟩
  | .hbm, ⟨21, _⟩ => ⟨S1034x1034, .bf16⟩
  | .hbm, ⟨22, _⟩ => ⟨S1034x1034, .bf16⟩
  | .hbm, ⟨23, _⟩ => ⟨S1024x1034, .bf16⟩
  | .hbm, ⟨24, _⟩ => ⟨S10x1034, .bf16⟩
  | .hbm, ⟨25, _⟩ => ⟨S3x1034, .bf16⟩
  | .hbm, ⟨26, _⟩ => ⟨S1034x3, .bf16⟩
  | .hbm, ⟨27, _⟩ => ⟨S1x1034, .f32⟩
  | .hbm, ⟨28, _⟩ => ⟨S1x3, .f32⟩
  | .hbm, ⟨29, _⟩ => ⟨S16384x3, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1034, .bf16⟩
  | .local _ .vmem, ⟨8, _⟩ => ⟨S10x1034, .bf16⟩
  | .local _ .vmem, ⟨9, _⟩ => ⟨S1x1034, .f32⟩
  | .local _ .vmem, ⟨10, _⟩ => ⟨S1034x3, .bf16⟩
  | .local _ .vmem, ⟨11, _⟩ => ⟨S1x3, .f32⟩
  | .local _ .vmem, ⟨12, _⟩ => ⟨S512x3, .f32⟩
  | .local _ .vmem, ⟨13, _⟩ => ⟨S512x3, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1034 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x1034 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1034 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1034x3 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  reducesTo_S1024_S_d0 : S1024.ReducesTo [0] S_
  h_S_ : 0 < S_.numel
  bcast_S_S1024 : S_.BroadcastsInDim S1024 (![] : Fin 0 → Fin S1024.rank)
  shapeCasts_S_S_ : S_.ShapeCasts S_
  shapeCasts_S1024_S1x1024 : S1024.ShapeCasts S1x1024
  bitsLt_bf16_f32 : FTy.bits .bf16 < FTy.bits .f32
  transposes_S1034x1034_S1034x1034_1_0 : S1034x1034.Transposes [1, 0] S1034x1034
  slices_S1034x1034_S1024x1034_0_0 : S1034x1034.Slices ![0, 0] S1024x1034
  slices_S1034x1034_S10x1034_1024_0 : S1034x1034.Slices ![1024, 0] S10x1034
  transposes_S3x1034_S1034x3_1_0 : S3x1034.Transposes [1, 0] S1034x3
  shapeCasts_S1034_S1x1034 : S1034.ShapeCasts S1x1034
  shapeCasts_S3_S1x3 : S3.ShapeCasts S1x3
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S512x1024_S512 : S512x1024.Reduces [1] S512
  shapeCasts_S512_S512x1 : S512.ShapeCasts S512x1
  broadcasts_S1x1024_S512x1024 : S1x1024.Broadcasts S512x1024
  concatenates_S512x1_S512x1_S512x1_S512x1_S512x1_S512x1_S512x1_S512x1_S512x1_S512x1_S512x10_d1 : Shape.Concatenates [S512x1, S512x1, S512x1, S512x1, S512x1, S512x1, S512x1, S512x1, S512x1, S512x1] S512x10 1
  inb_S1024x1034_S1024x1034_0_0 : ∀ a, (![0, 0] : Fin 2 → Nat) a + S1024x1034.size a ≤ S1024x1034.size a
  h_S1024x1034 : 0 < S1024x1034.numel
  shapeCasts_S1024x1034_S1024x1034 : S1024x1034.ShapeCasts S1024x1034
  inb_S10x1034_S10x1034_0_0 : ∀ a, (![0, 0] : Fin 2 → Nat) a + S10x1034.size a ≤ S10x1034.size a
  h_S10x1034 : 0 < S10x1034.numel
  shapeCasts_S10x1034_S10x1034 : S10x1034.ShapeCasts S10x1034
  inb_S1x1034_S1x1034_0_0 : ∀ a, (![0, 0] : Fin 2 → Nat) a + S1x1034.size a ≤ S1x1034.size a
  h_S1x1034 : 0 < S1x1034.numel
  shapeCasts_S1x1034_S1x1034 : S1x1034.ShapeCasts S1x1034
  broadcasts_S1x1034_S512x1034 : S1x1034.Broadcasts S512x1034
  inb_S1034x3_S1034x3_0_0 : ∀ a, (![0, 0] : Fin 2 → Nat) a + S1034x3.size a ≤ S1034x3.size a
  h_S1034x3 : 0 < S1034x3.numel
  shapeCasts_S1034x3_S1034x3 : S1034x3.ShapeCasts S1034x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S512x3 : S1x3.Broadcasts S512x3
  inb_S512x3_S512x3_0_0 : ∀ a, (![0, 0] : Fin 2 → Nat) a + S512x3.size a ≤ S512x3.size a
  h_S512x3 : 0 < S512x3.numel
  dot_S512x1024_S1024x1034_S512x1034_1_0_0_1_n_n_wf : DotDims.WF S512x1024 S1024x1034 S512x1034 [1] [0] [0] [1] [] []
  dot_S512x10_S10x1034_S512x1034_1_0_0_1_n_n_wf : DotDims.WF S512x10 S10x1034 S512x1034 [1] [0] [0] [1] [] []
  dot_S512x1034_S1034x3_S512x3_1_0_0_1_n_n_wf : DotDims.WF S512x1034 S1034x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1034.size a ≤ S1024x1034.size a
  hwx0_4 : ∀ i : grid0.Coords, EltTy.bits .bf16 = 32 ∨ (Rect.block (s := S1024x1034) S1024x1034.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x1034.size a ≤ S10x1034.size a
  hwx0_5 : ∀ i : grid0.Coords, EltTy.bits .bf16 = 32 ∨ (Rect.block (s := S10x1034) S10x1034.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1034.size a ≤ S1x1034.size a
  hwx0_6 : ∀ i : grid0.Coords, EltTy.bits .f32 = 32 ∨ (Rect.block (s := S1x1034) S1x1034.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1034x3.size a ≤ S1034x3.size a
  hwx0_7 : ∀ i : grid0.Coords, EltTy.bits .bf16 = 32 ∨ (Rect.block (s := S1034x3) S1034x3.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x3.size a ≤ S1x3.size a
  hwx0_8 : ∀ i : grid0.Coords, EltTy.bits .f32 = 32 ∨ (Rect.block (s := S1x3) S1x3.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x3.size a ≤ S16384x3.size a
  hwx0_9 : ∀ i : grid0.Coords, EltTy.bits .f32 = 32 ∨ (Rect.block (s := S16384x3) S512x3.size (cc0_transform_9 i) (hinb0_9 i)).WholeWords (EltTy.packing .f32)

variable [Facts₀]

def dot_S512x1024_S1024x1034_S512x1034_1_0_0_1_n_n : DotDims S512x1024 S1024x1034 S512x1034 where
  lhsContracting := [1]
  rhsContracting := [0]
  lhsNonContracting := [0]
  rhsNonContracting := [1]
  lhsBatch := []
  rhsBatch := []
  wf := dot_S512x1024_S1024x1034_S512x1034_1_0_0_1_n_n_wf
def dot_S512x10_S10x1034_S512x1034_1_0_0_1_n_n : DotDims S512x10 S10x1034 S512x1034 where
  lhsContracting := [1]
  rhsContracting := [0]
  lhsNonContracting := [0]
  rhsNonContracting := [1]
  lhsBatch := []
  rhsBatch := []
  wf := dot_S512x10_S10x1034_S512x1034_1_0_0_1_n_n_wf
def dot_S512x1034_S1034x3_S512x3_1_0_0_1_n_n : DotDims S512x1034 S1034x3 S512x3 where
  lhsContracting := [1]
  rhsContracting := [0]
  lhsNonContracting := [0]
  rhsNonContracting := [1]
  lhsBatch := []
  rhsBatch := []
  wf := dot_S512x1034_S1034x3_S512x3_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1034.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S10x1034.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x1034.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1034x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S512x3.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024 : Shape := ⟨1, ![1024]⟩
abbrev S_ : Shape := ⟨0, ![]⟩
abbrev S1034x1034 : Shape := ⟨2, ![1034, 1034]⟩
abbrev S1034 : Shape := ⟨1, ![1034]⟩
abbrev S3x1034 : Shape := ⟨2, ![3, 1034]⟩
abbrev S3 : Shape := ⟨1, ![3]⟩
abbrev S16384 : Shape := ⟨1, ![16384]⟩
abbrev S16384x1 : Shape := ⟨2, ![16384, 1]⟩
abbrev S1 : Shape := ⟨1, ![1]⟩
abbrev S1x1024 : Shape := ⟨2, ![1, 1024]⟩
abbrev S16384x1034 : Shape := ⟨2, ![16384, 1034]⟩
abbrev S1x1034 : Shape := ⟨2, ![1, 1034]⟩
abbrev S1034x3 : Shape := ⟨2, ![1034, 3]⟩
abbrev S16384x3 : Shape := ⟨2, ![16384, 3]⟩
abbrev S1x3 : Shape := ⟨2, ![1, 3]⟩

abbrev nBuf : Space → Nat
  | .hbm => 114
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S_, .f32⟩
  | .hbm, ⟨5, _⟩ => ⟨S1034x1034, .f32⟩
  | .hbm, ⟨6, _⟩ => ⟨S1034, .f32⟩
  | .hbm, ⟨7, _⟩ => ⟨S3x1034, .f32⟩
  | .hbm, ⟨8, _⟩ => ⟨S3, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1024, .f32⟩
  | .hbm, ⟨30, _⟩ => ⟨S_, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S1024, .f32⟩
  | .hbm, ⟨38, _⟩ => ⟨S1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384, .f32⟩
  | .hbm, ⟨83, _⟩ => ⟨S16384x1, .f32⟩
  | .hbm, ⟨84, _⟩ => ⟨S16384x1, .f32⟩
  | .hbm, ⟨85, _⟩ => ⟨S16384x1024, .f32⟩
  | .hbm, ⟨86, _⟩ => ⟨S_, .f32⟩
  | .hbm, ⟨87, _⟩ => ⟨S16384, .f32⟩
  | .hbm, ⟨88, _⟩ => ⟨S16384x1, .f32⟩
  | .hbm, ⟨89, _⟩ => ⟨S16384x1, .f32⟩
  | .hbm, ⟨90, _⟩ => ⟨S16384x1024, .f32⟩
  | .hbm, ⟨91, _⟩ => ⟨S_, .f32⟩
  | .hbm, ⟨92, _⟩ => ⟨S16384, .f32⟩
  | .hbm, ⟨93, _⟩ => ⟨S16384x1, .f32⟩
  | .hbm, ⟨94, _⟩ => ⟨S16384x1, .f32⟩
  | .hbm, ⟨95, _⟩ => ⟨S16384x1024, .f32⟩
  | .hbm, ⟨96, _⟩ => ⟨S_, .f32⟩
  | .hbm, ⟨97, _⟩ => ⟨S16384, .f32⟩
  | .hbm, ⟨98, _⟩ => ⟨S16384x1, .f32⟩
  | .hbm, ⟨99, _⟩ => ⟨S16384x1, .f32⟩
  | .hbm, ⟨100, _⟩ => ⟨S16384x1034, .f32⟩
  | .hbm, ⟨101, _⟩ => ⟨S1034x1034, .f32⟩
  | .hbm, ⟨102, _⟩ => ⟨S16384x1034, .f32⟩
  | .hbm, ⟨103, _⟩ => ⟨S1x1034, .f32⟩
  | .hbm, ⟨104, _⟩ => ⟨S16384x1034, .f32⟩
  | .hbm, ⟨105, _⟩ => ⟨S16384x1034, .f32⟩
  | .hbm, ⟨106, _⟩ => ⟨S_, .f32⟩
  | .hbm, ⟨107, _⟩ => ⟨S16384x1034, .f32⟩
  | .hbm, ⟨108, _⟩ => ⟨S16384x1034, .f32⟩
  | .hbm, ⟨109, _⟩ => ⟨S1034x3, .f32⟩
  | .hbm, ⟨110, _⟩ => ⟨S16384x3, .f32⟩
  | .hbm, ⟨111, _⟩ => ⟨S1x3, .f32⟩
  | .hbm, ⟨112, _⟩ => ⟨S16384x3, .f32⟩
  | .hbm, ⟨113, _⟩ => ⟨S16384x3, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_call2_v0 : Ref sig .tc := ⟨.hbm, 29, rfl⟩
abbrev main_call2_cst : Ref sig .tc := ⟨.hbm, 30, rfl⟩
abbrev main_call2_v1 : Ref sig .tc := ⟨.hbm, 31, rfl⟩
abbrev main_call2_v2 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_3 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_4 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_cst_10 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call3_v0 : Ref sig .tc := ⟨.hbm, 80, rfl⟩
abbrev main_call3_cst : Ref sig .tc := ⟨.hbm, 81, rfl⟩
abbrev main_call3_v1 : Ref sig .tc := ⟨.hbm, 82, rfl⟩
abbrev main_call3_v2 : Ref sig .tc := ⟨.hbm, 83, rfl⟩
abbrev main_v47 : Ref sig .tc := ⟨.hbm, 84, rfl⟩
abbrev main_call4_v0 : Ref sig .tc := ⟨.hbm, 85, rfl⟩
abbrev main_call4_cst : Ref sig .tc := ⟨.hbm, 86, rfl⟩
abbrev main_call4_v1 : Ref sig .tc := ⟨.hbm, 87, rfl⟩
abbrev main_call4_v2 : Ref sig .tc := ⟨.hbm, 88, rfl⟩
abbrev main_v48 : Ref sig .tc := ⟨.hbm, 89, rfl⟩
abbrev main_call5_v0 : Ref sig .tc := ⟨.hbm, 90, rfl⟩
abbrev main_call5_cst : Ref sig .tc := ⟨.hbm, 91, rfl⟩
abbrev main_call5_v1 : Ref sig .tc := ⟨.hbm, 92, rfl⟩
abbrev main_call5_v2 : Ref sig .tc := ⟨.hbm, 93, rfl⟩
abbrev main_v49 : Ref sig .tc := ⟨.hbm, 94, rfl⟩
abbrev main_call6_v0 : Ref sig .tc := ⟨.hbm, 95, rfl⟩
abbrev main_call6_cst : Ref sig .tc := ⟨.hbm, 96, rfl⟩
abbrev main_call6_v1 : Ref sig .tc := ⟨.hbm, 97, rfl⟩
abbrev main_call6_v2 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_call7_cst : Ref sig .tc := ⟨.hbm, 106, rfl⟩
abbrev main_call7_v0 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  reducesTo_S1024_S_d0 : S1024.ReducesTo [0] S_
  bcast_S_S1 : S_.BroadcastsInDim S1 (![] : Fin 0 → Fin S1.rank)
  bcast_S1_S1024_0 : S1.BroadcastsInDim S1024 (![0] : Fin 1 → Fin S1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  concatenates_S16384x1024_S16384x1_S16384x1_S16384x1_S16384x1_S16384x1_S16384x1_S16384x1_S16384x1_S16384x1_S16384x1_S16384x1034_d1 : Shape.Concatenates [S16384x1024, S16384x1, S16384x1, S16384x1, S16384x1, S16384x1, S16384x1, S16384x1, S16384x1, S16384x1, S16384x1] S16384x1034 1
  transposes_S1034x1034_S1034x1034_1_0 : S1034x1034.Transposes [1, 0] S1034x1034
  bcast_S1034_S1x1034_1 : S1034.BroadcastsInDim S1x1034 (![1] : Fin 1 → Fin S1x1034.rank)
  bcast_S1x1034_S16384x1034_0_1 : S1x1034.BroadcastsInDim S16384x1034 (![0, 1] : Fin 2 → Fin S16384x1034.rank)
  bcast_S_S16384x1034 : S_.BroadcastsInDim S16384x1034 (![] : Fin 0 → Fin S16384x1034.rank)
  transposes_S3x1034_S1034x3_1_0 : S3x1034.Transposes [1, 0] S1034x3
  bcast_S3_S1x3_1 : S3.BroadcastsInDim S1x3 (![1] : Fin 1 → Fin S1x3.rank)
  bcast_S1x3_S16384x3_0_1 : S1x3.BroadcastsInDim S16384x3 (![0, 1] : Fin 2 → Fin S16384x3.rank)
  dot_S16384x1034_S1034x1034_S16384x1034_1_0_0_1_n_n_wf : DotDims.WF S16384x1034 S1034x1034 S16384x1034 [1] [0] [0] [1] [] []
  dot_S16384x1034_S1034x3_S16384x3_1_0_0_1_n_n_wf : DotDims.WF S16384x1034 S1034x3 S16384x3 [1] [0] [0] [1] [] []

variable [Facts₀]

def dot_S16384x1034_S1034x1034_S16384x1034_1_0_0_1_n_n : DotDims S16384x1034 S1034x1034 S16384x1034 where
  lhsContracting := [1]
  rhsContracting := [0]
  lhsNonContracting := [0]
  rhsNonContracting := [1]
  lhsBatch := []
  rhsBatch := []
  wf := dot_S16384x1034_S1034x1034_S16384x1034_1_0_0_1_n_n_wf
def dot_S16384x1034_S1034x3_S16384x3_1_0_0_1_n_n : DotDims S16384x1034 S1034x3 S16384x3 where
  lhsContracting := [1]
  rhsContracting := [0]
  lhsNonContracting := [0]
  rhsNonContracting := [1]
  lhsBatch := []
  rhsBatch := []
  wf := dot_S16384x1034_S1034x3_S16384x3_1_0_0_1_n_n_wf

class Facts : Prop extends Facts₀ where

variable [Facts]
-- ==== Proof.Spec.lean ====
/-
  What both programs compute, one batch row at a time, on the extended reals.

  A row of the result depends on three rows of 1024 entries — the final state `z`, the premise vector `x`
  and the hypothesis vector `y` —, on the neutral direction `n` (1024 entries) with its scale `s`, and on the two
  layers' weights. Ten scalar features are formed from `x`, `y`, `z`, `n`, `s`, joined behind `z` into a vector
  of 1034 entries, and sent through a layer with a rectifier and a second layer onto three entries.

  The two programs spell the ten features differently. One (`normFeat`) first divides each vector by its
  clamped norm and then takes inner products of the quotients; the other (`rawFeat`) takes inner products of the
  vectors as they are and multiplies by the reciprocals of the clamped norms afterwards, obtains the distance
  `‖y - x‖` from `‖x‖² + ‖y‖² - 2⟨x, y⟩`, and receives the neutral direction already normalised and scaled.
  The first layer is one contraction over all 1034 entries on one side (`hidJoined`) and the sum of a
  contraction over the 1024 entries of `z` and one over the ten features on the other (`hidSplit`), against the
  transposed weight matrix cut in two. Proof/Algebra.lean shows the two spellings are one function when
  `x`, `y`, `n` and `s` are real numbers.
-/
import Idealize.ShloMosaic.PureOps.Ideal
import Mathlib.Algebra.BigOperators.Fin
import Mathlib.Data.Fin.VecNotation

noncomputable section

namespace Cert.Nli

open Idealize.ShloMosaic

/-- An extended real that is a real number. -/
abbrev IsReal (x : EReal) : Prop := ∃ r : ℝ, x = (r : EReal)

/-- The clamp under the norms (the float nearest to 1e-12). -/
abbrev cE : EReal := Ideal.ofBits .f32 0x2B8CBCCC#32
/-- The float 1. -/
abbrev c1 : EReal := Ideal.ofBits .f32 0x3F800000#32
/-- The float 1/2. -/
abbrev ch : EReal := Ideal.ofBits .f32 0x3F000000#32
/-- The float 2. -/
abbrev c2 : EReal := Ideal.ofBits .f32 0x40000000#32

/-- A vector of 1024 entries. -/
abbrev Row := Fin 1024 → EReal

/-- The inner product of two vectors. -/
def dot (x y : Row) : EReal := ∑ k : Fin 1024, x k * y k
/-- The Euclidean norm. -/
def nrm (x : Row) : EReal := Ideal.sqrt (dot x x)
/-- The norm clamped from below. -/
def den (x : Row) : EReal := max (nrm x) cE
/-- A vector divided by its clamped norm. -/
def normed (x : Row) : Row := fun k => Ideal.div (x k) (den x)
/-- The reciprocal of the clamped norm. -/
def inv (x : Row) : EReal := Ideal.div c1 (den x)
/-- The neutral direction normalised, then scaled. -/
def scaledNormed (n : Row) (s : EReal) : Row := fun k => s * normed n k

/-- The ten features from the normalised vectors: cosine, its opposite, the two affine images of the cosine, the
    distance, the three norms, and the two scaled cosines against the neutral direction. -/
def normFeat (x y z n : Row) (s : EReal) : Fin 10 → EReal :=
  ![dot (normed x) (normed y),
    dot (fun k => -normed x k) (normed y),
    c1 * ((c1 + dot (normed x) (normed y)) * ch),
    (c1 - dot (normed x) (normed y)) * ch,
    nrm (fun k => y k - x k),
    nrm x,
    nrm y,
    nrm z,
    s * dot (normed x) (normed n),
    s * dot (normed y) (normed n)]

/-- The ten features from the raw inner products and the reciprocal norms; `w` is the neutral direction already
    normalised and scaled. -/
def rawFeat (x y z w : Row) : Fin 10 → EReal :=
  ![dot x y * inv x * inv y,
    0 - dot x y * inv x * inv y,
    c1 * ((c1 + dot x y * inv x * inv y) * ch),
    (c1 - dot x y * inv x * inv y) * ch,
    Ideal.sqrt (max (dot x x + dot y y - c2 * dot x y) 0),
    nrm x,
    nrm y,
    nrm z,
    dot x w * inv x,
    dot y w * inv y]

/-- The row `z` with the ten features behind it: 1034 entries. -/
def joined (z : Row) (f : Fin 10 → EReal) : Fin 1034 → EReal :=
  fun k => if h : k.val < 1024 then z ⟨k.val, h⟩ else f ⟨k.val - 1024, by have := k.isLt; omega⟩

/-- The first layer as one contraction over the joined vector: entry `j` is `max (∑ₖ v k · W j k + B j) 0`. -/
def hidJoined (v : Fin 1034 → EReal) (W : Fin 1034 → Fin 1034 → EReal) (B : Fin 1034 → EReal) : Fin 1034 → EReal :=
  fun j => max ((∑ k : Fin 1034, v k * W j k) + B j) 0

/-- The first layer as two contractions, over the transposed weights cut after row 1024: `Wt k j` for the 1024
    entries of `z`, `Wb k j` for the ten features. -/
def hidSplit (z : Row) (f : Fin 10 → EReal) (Wt : Fin 1024 → Fin 1034 → EReal) (Wb : Fin 10 → Fin 1034 → EReal)
    (B : Fin 1034 → EReal) : Fin 1034 → EReal :=
  fun j => max (((∑ k : Fin 1024, z k * Wt k j) + ∑ k : Fin 10, f k * Wb k j) + B j) 0

/-- The second layer over the transposed weights `Wt j c`: entry `c` is `∑ⱼ hid j · Wt j c + B c`. -/
def outT (hid : Fin 1034 → EReal) (Wt : Fin 1034 → Fin 3 → EReal) (B : Fin 3 → EReal) : Fin 3 → EReal :=
  fun c => (∑ j : Fin 1034, hid j * Wt j c) + B c

/-- One row of the result in the second spelling, from the row's three vectors, the prepared neutral direction and
    the prepared (transposed, cut) weights. -/
def rowSplit (z x y w : Row) (Wt : Fin 1024 → Fin 1034 → EReal) (Wb : Fin 10 → Fin 1034 → EReal) (B1 : Fin 1034 → EReal)
    (W2t : Fin 1034 → Fin 3 → EReal) (B2 : Fin 3 → EReal) : Fin 3 → EReal :=
  outT (hidSplit z (rawFeat x y z w) Wt Wb B1) W2t B2

/-- The whole result in the first spelling, over the nine inputs: row `b`, entry `c`. -/
def Gref (H VP VH : Fin 16384 → Row) (N : Row) (s : EReal) (W1 : Fin 1034 → Fin 1034 → EReal) (B1 : Fin 1034 → EReal)
    (W2 : Fin 3 → Fin 1034 → EReal) (B2 : Fin 3 → EReal) (b : Fin 16384) : Fin 3 → EReal :=
  outT (hidJoined (joined (H b) (normFeat (VP b) (VH b) (H b) N s)) W1 B1) (fun j c => W2 c j) B2

/-- The whole result in the second spelling, over the nine inputs. -/
def Gker (H VP VH : Fin 16384 → Row) (N : Row) (s : EReal) (W1 : Fin 1034 → Fin 1034 → EReal) (B1 : Fin 1034 → EReal)
    (W2 : Fin 3 → Fin 1034 → EReal) (B2 : Fin 3 → EReal) (b : Fin 16384) : Fin 3 → EReal :=
  rowSplit (H b) (VP b) (VH b) (scaledNormed N s)
    (fun k j => W1 j ⟨k.val, by have := k.isLt; omega⟩) (fun k j => W1 j ⟨1024 + k.val, by have := k.isLt; omega⟩) B1
    (fun j c => W2 c j) B2

end Cert.Nli

end
-- ==== Proof.LibSumIdx.lean ====
/-
  Sums over the index set of a rank-1, rank-3 or rank-4 array as iterated sums over the coordinates.
-/
import Idealize.ShloMosaic.Lib.ValueIdx
import Mathlib.Algebra.BigOperators.Fin

noncomputable section

open scoped BigOperators

namespace Cert.SumIdx

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.SumIdx

end
-- ==== Proof.KerHost.lean ====
/-
  The arrays the kernel's program prepares on the host before the region, read at an index: the neutral direction
  normalised and scaled, the two layers' weights transposed (the first cut after row 1024), the biases as rows.
-/
import proofs.«405241_j66417374265586_3_alg».proof.Proof.Gen.KernelIdeal.Frame
import proofs.«405241_j66417374265586_3_alg».proof.Proof.Spec
import proofs.«405241_j66417374265586_3_alg».proof.Proof.LibSumIdx
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.IdealHost

noncomputable section

namespace Cert.KernelIdeal.HostVal

open Cert.KernelIdeal Cert.KernelIdeal.Gen Idealize.ShloMosaic Idealize.ShloMosaic.TcCoe Idealize.ShloMosaic.ValueIdx Idealize.SL.Sem
open Cert.Nli

variable (m : (ℓ : Loc nD τ sig) → Buf (Elt Ideal) ℓ) (c : Dev nD)

/-- The prepared row over any vector `n` and scalar `s`: the product, entry by entry, of `s` and the quotient of
    `n` by the larger of its Euclidean norm and the clamp. -/
private theorem prepared_apply (n : FVec Ideal S1024 .f32) (s : FVec Ideal S_ .f32) (k : Fin 1024) :
    shapeCast S1x1024
        (mulf (F := Ideal)
          (broadcastInDim S1024 ![] bcast_S_S1024 (shapeCast S_ s shapeCasts_S_S_))
          (Host.divf (F := Ideal) n
            (broadcastInDim S1024 ![] bcast_S_S1024
              (maximumf (F := Ideal)
                (Host.sqrt (F := Ideal)
                  (Host.reduceAdd (F := Ideal) (mulf (F := Ideal) n n)
                    (constant (F := Ideal) S_ .f32 0x00000000#32) reducesTo_S1024_S_d0 h_S_))
                (constant (F := Ideal) S_ .f32 0x2B8CBCCC#32)))))
        shapeCasts_S1024_S1x1024 (ix2 (0 : Fin 1) k)
      = scaledNormed (fun k => n (ix1 k)) (s ix0) k := by
  refine (shapeCast_a_1a_apply _ _ 0 k).trans ?_
  rw [mulf_apply, broadcastInDim_scalar_apply, hostDivf_apply, broadcastInDim_scalar_apply, maximumf_apply,
    constant_apply]
  have hs : shapeCast S_ s shapeCasts_S_S_ ix0 = s ix0 := shapeCast_apply s _ _ _ rfl
  have hsum : Host.reduceAdd (F := Ideal) (mulf (F := Ideal) n n) (constant (F := Ideal) S_ .f32 0x00000000#32)
      reducesTo_S1024_S_d0 h_S_ ix0 = ∑ a : Fin 1024, n (ix1 a) * n (ix1 a) := by
    rw [hostReduceAdd_apply, Ideal.hostReduceAdd_total _ (fun b => b.elim0), constant_apply, Ideal.ofBits_zero_f32,
      zero_add, Cert.SumIdx.sum_idx1]
    rfl
  have hq : Host.sqrt (F := Ideal) (Host.reduceAdd (F := Ideal) (mulf (F := Ideal) n n)
      (constant (F := Ideal) S_ .f32 0x00000000#32) reducesTo_S1024_S_d0 h_S_) ix0
        = Ideal.sqrt (∑ a : Fin 1024, n (ix1 a) * n (ix1 a)) := by
    rw [← hsum]; rfl
  rw [hs, hq]
  rfl

/-- The prepared neutral direction: normalised by its clamped norm, then scaled. -/
theorem V_v7 (k : Fin 1024) :
    (V m c main_v7 : S1x1024.Idx → EReal) (ix2 (0 : Fin 1) k)
      = scaledNormed (fun k => (m ((c : Thread nD τ).loc main_arg3) : S1024.Idx → EReal) (ix1 k))
          ((m ((c : Thread nD τ).loc main_arg4) : S_.Idx → EReal) ix0) k := by
  have e : (V m c main_v7 : S1x1024.Idx → EReal)
      = shapeCast S1x1024
          (mulf (F := Ideal)
            (broadcastInDim S1024 ![] bcast_S_S1024
              (shapeCast S_ (m ((c : Thread nD τ).loc main_arg4) : FVec Ideal S_ .f32) shapeCasts_S_S_))
            (Host.divf (F := Ideal) (m ((c : Thread nD τ).loc main_arg3) : FVec Ideal S1024 .f32)
              (broadcastInDim S1024 ![] bcast_S_S1024
                (maximumf (F := Ideal)
                  (Host.sqrt (F := Ideal)
                    (Host.reduceAdd (F := Ideal)
                      (mulf (F := Ideal) (m ((c : Thread nD τ).loc main_arg3) : FVec Ideal S1024 .f32)
                        (m ((c : Thread nD τ).loc main_arg3) : FVec Ideal S1024 .f32))
                      (constant (F := Ideal) S_ .f32 0x00000000#32) reducesTo_S1024_S_d0 h_S_))
                  (constant (F := Ideal) S_ .f32 0x2B8CBCCC#32)))))
          shapeCasts_S1024_S1x1024 := by
    dsimp only [Gen.V]
    simp only [Gen.hostOps0, Gen.hostOps0_1, List.flatten_cons, List.flatten_nil, List.append_nil, List.cons_append, List.nil_append]
    after_results
    rfl
  rw [e]
  exact prepared_apply _ _ k

/-- The first layer's weights transposed, rows 0 to 1023. -/
theorem V_v10 (k : Fin 1024) (j : Fin 1034) :
    (V m c main_v10 : S1024x1034.Idx → EReal) (ix2 k j)
      = (m ((c : Thread nD τ).loc main_arg5) : S1034x1034.Idx → EReal) (ix2 j (⟨k.val, by have := k.isLt; omega⟩ : Fin 1034)) := by
  have e : (V m c main_v10 : S1024x1034.Idx → EReal)
      = extractStridedSlice S1024x1034 ![0, 0]
          (transpose S1034x1034 [1, 0]
            (truncf (F := Ideal) .bf16 (m ((c : Thread nD τ).loc main_arg5) : FVec Ideal S1034x1034 .f32) bitsLt_bf16_f32)
            transposes_S1034x1034_S1034x1034_1_0)
          slices_S1034x1034_S1024x1034_0_0 := by
    dsimp only [Gen.V]
    simp only [Gen.hostOps0, Gen.hostOps0_1, List.flatten_cons, List.flatten_nil, List.append_nil, List.cons_append, List.nil_append]
    after_results
  rw [e]
  refine (slice2_axis0_apply 0 _ _ k j (⟨k.val, by have := k.isLt; omega⟩ : Fin 1034) (by simp)).trans ?_
  exact transpose_ix2_apply _ _ _ _

/-- The first layer's weights transposed, rows 1024 to 1033. -/
theorem V_v11 (k : Fin 10) (j : Fin 1034) :
    (V m c main_v11 : S10x1034.Idx → EReal) (ix2 k j)
      = (m ((c : Thread nD τ).loc main_arg5) : S1034x1034.Idx → EReal) (ix2 j (⟨1024 + k.val, by have := k.isLt; omega⟩ : Fin 1034)) := by
  have e : (V m c main_v11 : S10x1034.Idx → EReal)
      = extractStridedSlice S10x1034 ![1024, 0]
          (transpose S1034x1034 [1, 0]
            (truncf (F := Ideal) .bf16 (m ((c : Thread nD τ).loc main_arg5) : FVec Ideal S1034x1034 .f32) bitsLt_bf16_f32)
            transposes_S1034x1034_S1034x1034_1_0)
          slices_S1034x1034_S10x1034_1024_0 := by
    dsimp only [Gen.V]
    simp only [Gen.hostOps0, Gen.hostOps0_1, List.flatten_cons, List.flatten_nil, List.append_nil, List.cons_append, List.nil_append]
    after_results
  rw [e]
  refine (slice2_axis0_apply 1024 _ _ k j (⟨1024 + k.val, by have := k.isLt; omega⟩ : Fin 1034) rfl).trans ?_
  exact transpose_ix2_apply _ _ _ _

/-- The first layer's bias as a row. -/
theorem V_v14 (j : Fin 1034) :
    (V m c main_v14 : S1x1034.Idx → EReal) (ix2 (0 : Fin 1) j) = (m ((c : Thread nD τ).loc main_arg6) : S1034.Idx → EReal) (ix1 j) := by
  have e : (V m c main_v14 : S1x1034.Idx → EReal)
      = shapeCast S1x1034 (m ((c : Thread nD τ).loc main_arg6) : S1034.Idx → EReal) shapeCasts_S1034_S1x1034 := by
    dsimp only [Gen.V]
    simp only [Gen.hostOps0, Gen.hostOps0_1, List.flatten_cons, List.flatten_nil, List.append_nil, List.cons_append, List.nil_append]
    after_results
    rfl
  rw [e]
  exact shapeCast_a_1a_apply _ _ 0 j

/-- The second layer's weights transposed. -/
theorem V_v13 (j : Fin 1034) (q : Fin 3) :
    (V m c main_v13 : S1034x3.Idx → EReal) (ix2 j q) = (m ((c : Thread nD τ).loc main_arg7) : S3x1034.Idx → EReal) (ix2 q j) := by
  have e : (V m c main_v13 : S1034x3.Idx → EReal)
      = transpose S1034x3 [1, 0]
          (truncf (F := Ideal) .bf16 (m ((c : Thread nD τ).loc main_arg7) : FVec Ideal S3x1034 .f32) bitsLt_bf16_f32)
          transposes_S3x1034_S1034x3_1_0 := by
    dsimp only [Gen.V]
    simp only [Gen.hostOps0, Gen.hostOps0_1, List.flatten_cons, List.flatten_nil, List.append_nil, List.cons_append, List.nil_append]
    after_results
  rw [e]
  exact transpose_ix2_apply _ _ _ _

/-- The second layer's bias as a row. -/
theorem V_v15 (q : Fin 3) :
    (V m c main_v15 : S1x3.Idx → EReal) (ix2 (0 : Fin 1) q) = (m ((c : Thread nD τ).loc main_arg8) : S3.Idx → EReal) (ix1 q) := by
  have e : (V m c main_v15 : S1x3.Idx → EReal)
      = shapeCast S1x3 (m ((c : Thread nD τ).loc main_arg8) : S3.Idx → EReal) shapeCasts_S3_S1x3 := by
    dsimp only [Gen.V]
    simp only [Gen.hostOps0, Gen.hostOps0_1, List.flatten_cons, List.flatten_nil, List.append_nil, List.cons_append, List.nil_append]
    after_results
    rfl
  rw [e]
  exact shapeCast_a_1a_apply _ _ 0 q

end Cert.KernelIdeal.HostVal

end
-- ==== Proof.LibColumn.lean ====
/-
  Column vectors read at an index: a rank-1 array of `a` entries seen as an [a, 1] column, and an [a, 1] column
  broadcast across `b` columns. The library reads the ROW forms ([a] as [1, a]; [1, b] over [a, b]) by coordinates;
  these are the transposed cases, in the same style: the reshape by equating row-major positions, the broadcast by
  giving, per axis of the operand, the coordinate it is read at (0 on its unit axis).
-/
import Idealize.ShloMosaic.Lib.Pipeline.Value
import Idealize.ShloMosaic.Lib.ValueIdx

namespace Cert.Lib.Column

open Idealize.ShloMosaic Idealize.ShloMosaic.ValueIdx

variable {α : Type}

/-- A rank-1 array of `a` entries cast to an [a, 1] column reads, at `(i, u)`, the operand at `i`, whatever the unit
    coordinate `u`: entry `(i, u)` of the column sits at row-major position `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KerFeat.lean ====
/-
  The kernel body's column values — the inner products, norms, reciprocal norms and the cosine of a block's rows —
  read at row `p` of the block.
-/
import proofs.«405241_j66417374265586_3_alg».proof.Proof.Gen.KernelIdeal.Skeleton
import proofs.«405241_j66417374265586_3_alg».proof.Proof.Spec
import proofs.«405241_j66417374265586_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open Cert.Nli

/-- Row `p` of a block of 512 rows. -/
abbrev rowOf (v : Vec Ideal S512x1024 .f32) (p : Fin 512) : Row := fun k => v (ix2 p k)
/-- The one row of the prepared neutral direction. -/
abbrev rowW (v3 : Vec Ideal S1x1024 .f32) : Row := fun k => v3 (ix2 (0 : Fin 1) k)

variable (v1 v2 : Vec Ideal S512x1024 .f32) (v3 : Vec Ideal S1x1024 .f32) (p : Fin 512) (u : Fin 1)

/-- The sum along the 1024 entries of a row, kept as a column: at `(p, u)` it is the sum of row `p`. -/
private theorem laneSum_apply (src : FVec Ideal S512x1024 .f32) (hacc : (0x00000000#32 : BitVec 32) = 0x00000000#32) :
    shapeCast S512x1 (multiReduction (F := Ideal) .add [1] S512 src 0x00000000#32 reduces_S512x1024_S512 (.inl rfl) hacc)
      shapeCasts_S512_S512x1 (ix2 p u) = ∑ k : Fin 1024, src (ix2 p k) := by
  rw [Cert.Lib.Column.shapeCast_a_a1_apply]
  refine (Ideal.multiReduction_add_single src 0x00000000#32 reduces_S512x1024_S512 (.inl rfl) hacc (ix1 p)).trans ?_
  refine Finset.sum_congr rfl fun k _ => ?_
  refine congrArg src (funext fun a => Fin.ext ?_)
  match a with
  | ⟨0, _⟩ => rfl
  | ⟨1, _⟩ => rfl

/-- The one row of the neutral direction spread over the 512 rows: at `(p, k)` it is the row's entry `k`. -/
private theorem rowBroadcast_apply (k : Fin 1024) :
    broadcastTo S512x1024 (k0_pay2 (F := Ideal) v3) broadcasts_S1x1024_S512x1024 (ix2 p k) = v3 (ix2 (0 : Fin 1) k) := by
  unfold k0_pay2
  rw [broadcastTo_1b_ab_apply, shapeCast_self]

theorem pay3_apply : k0_pay3 (F := Ideal) v1 (ix2 p u) = dot (rowOf v1 p) (rowOf v1 p) := by
  unfold k0_pay3
  exact laneSum_apply p u (mulf v1 v1) rfl

theorem pay4_apply : k0_pay4 (F := Ideal) v2 (ix2 p u) = dot (rowOf v2 p) (rowOf v2 p) := by
  unfold k0_pay4
  exact laneSum_apply p u (mulf v2 v2) rfl

theorem pay5_apply : k0_pay5 (F := Ideal) v1 (ix2 p u) = nrm (rowOf v1 p) := by
  unfold k0_pay5
  show Ideal.sqrt (k0_pay3 (F := Ideal) v1 (ix2 p u)) = nrm (rowOf v1 p)
  rw [pay3_apply]
  rfl

theorem pay6_apply : k0_pay6 (F := Ideal) v2 (ix2 p u) = nrm (rowOf v2 p) := by
  unfold k0_pay6
  show Ideal.sqrt (k0_pay4 (F := Ideal) v2 (ix2 p u)) = nrm (rowOf v2 p)
  rw [pay4_apply]
  rfl

theorem pay7_apply : k0_pay7 (F := Ideal) v1 (ix2 p u) = inv (rowOf v1 p) := by
  unfold k0_pay7
  show Ideal.div c1 (max (k0_pay5 (F := Ideal) v1 (ix2 p u)) cE) = inv (rowOf v1 p)
  rw [pay5_apply]
  rfl

theorem pay8_apply : k0_pay8 (F := Ideal) v2 (ix2 p u) = inv (rowOf v2 p) := by
  unfold k0_pay8
  show Ideal.div c1 (max (k0_pay6 (F := Ideal) v2 (ix2 p u)) cE) = inv (rowOf v2 p)
  rw [pay6_apply]
  rfl

theorem pay9_apply : k0_pay9 (F := Ideal) v1 v2 (ix2 p u) = dot (rowOf v1 p) (rowOf v2 p) := by
  unfold k0_pay9
  exact laneSum_apply p u (mulf v1 v2) rfl

theorem pay10_apply : k0_pay10 (F := Ideal) v1 v3 (ix2 p u) = dot (rowOf v1 p) (rowW v3) := by
  unfold k0_pay10
  refine (laneSum_apply p u _ rfl).trans ?_
  refine Finset.sum_congr rfl fun k _ => ?_
  show v1 (ix2 p k) * broadcastTo S512x1024 (k0_pay2 (F := Ideal) v3) broadcasts_S1x1024_S512x1024 (ix2 p k) = _
  rw [rowBroadcast_apply]

theorem pay11_apply : k0_pay11 (F := Ideal) v2 v3 (ix2 p u) = dot (rowOf v2 p) (rowW v3) := by
  unfold k0_pay11
  refine (laneSum_apply p u _ rfl).trans ?_
  refine Finset.sum_congr rfl fun k _ => ?_
  show v2 (ix2 p k) * broadcastTo S512x1024 (k0_pay2 (F := Ideal) v3) broadcasts_S1x1024_S512x1024 (ix2 p k) = _
  rw [rowBroadcast_apply]

theorem pay12_apply : k0_pay12 (F := Ideal) v1 v2 (ix2 p u)
    = dot (rowOf v1 p) (rowOf v2 p) * inv (rowOf v1 p) * inv (rowOf v2 p) := by
  unfold k0_pay12
  show k0_pay9 (F := Ideal) v1 v2 (ix2 p u) * k0_pay7 (F := Ideal) v1 (ix2 p u) * k0_pay8 (F := Ideal) v2 (ix2 p u) = _
  rw [pay9_apply, pay7_apply, pay8_apply]

theorem pay13_apply : k0_pay13 (F := Ideal) v1 v2 (ix2 p u)
    = 0 - dot (rowOf v1 p) (rowOf v2 p) * inv (rowOf v1 p) * inv (rowOf v2 p) := by
  unfold k0_pay13
  show Ideal.ofBits .f32 0x00000000#32 - k0_pay12 (F := Ideal) v1 v2 (ix2 p u) = _
  rw [pay12_apply, Ideal.ofBits_zero_f32]

theorem pay14_apply : k0_pay14 (F := Ideal) v1 v2 (ix2 p u)
    = c1 + dot (rowOf v1 p) (rowOf v2 p) * inv (rowOf v1 p) * inv (rowOf v2 p) := by
  unfold k0_pay14
  show c1 + k0_pay12 (F := Ideal) v1 v2 (ix2 p u) = _
  rw [pay12_apply]

theorem pay15_apply : (k0_pay15 (F := Ideal)) (ix2 p u) = ch := by
  rfl

end Cert.KernelIdeal.Body

end
-- ==== Proof.KerMlp.lean ====
/-
  The kernel body's two layers read at an index, over arbitrary column values for the ten features' ingredients:
  the first layer (two contractions, the bias row, the rectifier) and the second (one contraction and its bias row).
-/
import proofs.«405241_j66417374265586_3_alg».proof.Proof.Gen.KernelIdeal.Skeleton
import proofs.«405241_j66417374265586_3_alg».proof.Proof.Spec
import proofs.«405241_j66417374265586_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open Cert.Nli

/-! ## The three contractions at an index

For a contraction of `[M, K]` against `[K, N]` the operand indices at output index `(p, j)` and contraction coordinate `k`
are `(p, k)` and `(k, j)`: four coordinate facts per contraction, then the sum over the contraction's index set is re-indexed
by its one coordinate. -/

private theorem lhs_hidA_0 (i : S512x1034.Idx) (q : dot_S512x1024_S1024x1034_S512x1034_1_0_0_1_n_n.contr.Idx) :
    (dot_S512x1024_S1024x1034_S512x1034_1_0_0_1_n_n.lhsIdx i q 0).val = (i 0).val := by
  unfold DotDims.lhsIdx
  rw [dif_neg (show ¬(0 : Fin S512x1024.rank) ∈ dot_S512x1024_S1024x1034_S512x1034_1_0_0_1_n_n.lhsBatch by decide), dif_pos (show (0 : Fin S512x1024.rank) ∈ dot_S512x1024_S1024x1034_S512x1034_1_0_0_1_n_n.lhsNonContracting by decide)]
  rfl
private theorem lhs_hidA_1 (i : S512x1034.Idx) (q : dot_S512x1024_S1024x1034_S512x1034_1_0_0_1_n_n.contr.Idx) :
    (dot_S512x1024_S1024x1034_S512x1034_1_0_0_1_n_n.lhsIdx i q 1).val = (q ⟨0, by decide⟩).val :=
  dot_S512x1024_S1024x1034_S512x1034_1_0_0_1_n_n.lhsIdx_val_of_single rfl i q
private theorem rhs_hidA_0 (i : S512x1034.Idx) (q : dot_S512x1024_S1024x1034_S512x1034_1_0_0_1_n_n.contr.Idx) :
    (dot_S512x1024_S1024x1034_S512x1034_1_0_0_1_n_n.rhsIdx i q 0).val = (q ⟨0, by decide⟩).val :=
  dot_S512x1024_S1024x1034_S512x1034_1_0_0_1_n_n.rhsIdx_val_of_single rfl i q
private theorem rhs_hidA_1 (i : S512x1034.Idx) (q : dot_S512x1024_S1024x1034_S512x1034_1_0_0_1_n_n.contr.Idx) :
    (dot_S512x1024_S1024x1034_S512x1034_1_0_0_1_n_n.rhsIdx i q 1).val = (i 1).val := by
  unfold DotDims.rhsIdx
  rw [dif_neg (show ¬(1 : Fin S1024x1034.rank) ∈ dot_S512x1024_S1024x1034_S512x1034_1_0_0_1_n_n.rhsBatch by decide), dif_pos (show (1 : Fin S1024x1034.rank) ∈ dot_S512x1024_S1024x1034_S512x1034_1_0_0_1_n_n.rhsNonContracting by decide)]
  rfl

/-- The first layer's contraction over the 1024 entries of the state row, at row `p`, entry `j`. -/
private theorem matmul_hidA_apply (lhs : FVec Ideal S512x1024 .bf16) (rhs : FVec Ideal S1024x1034 .bf16) (p : Fin 512) (j : Fin 1034) :
    matmul dot_S512x1024_S1024x1034_S512x1034_1_0_0_1_n_n none lhs rhs (constant (F := Ideal) S512x1034 .f32 0x00000000#32) (ix2 p j)
      = ∑ k : Fin 1024, lhs (ix2 p k) * rhs (ix2 k j) := by
  simp only [matmul]
  rw [Ideal.matmul_constant_zero_apply, ← Equiv.sum_comp (contrEquiv1 dot_S512x1024_S1024x1034_S512x1034_1_0_0_1_n_n 1024 rfl rfl).symm]
  refine Finset.sum_congr rfl fun k _ => ?_
  have hk := contrEquiv1_symm_val dot_S512x1024_S1024x1034_S512x1034_1_0_0_1_n_n 1024 rfl rfl k
  have el : dot_S512x1024_S1024x1034_S512x1034_1_0_0_1_n_n.lhsIdx (ix2 p j) ((contrEquiv1 dot_S512x1024_S1024x1034_S512x1034_1_0_0_1_n_n 1024 rfl rfl).symm k) = ix2 p k := funext fun a => Fin.ext (by
    match a with
    | ⟨0, _⟩ => exact lhs_hidA_0 _ _
    | ⟨1, _⟩ => exact (lhs_hidA_1 _ _).trans hk)
  have er : dot_S512x1024_S1024x1034_S512x1034_1_0_0_1_n_n.rhsIdx (ix2 p j) ((contrEquiv1 dot_S512x1024_S1024x1034_S512x1034_1_0_0_1_n_n 1024 rfl rfl).symm k) = ix2 k j := funext fun a => Fin.ext (by
    match a with
    | ⟨0, _⟩ => exact (rhs_hidA_0 _ _).trans hk
    | ⟨1, _⟩ => exact rhs_hidA_1 _ _)
  rw [el, er]

private theorem lhs_hidB_0 (i : S512x1034.Idx) (q : dot_S512x10_S10x1034_S512x1034_1_0_0_1_n_n.contr.Idx) :
    (dot_S512x10_S10x1034_S512x1034_1_0_0_1_n_n.lhsIdx i q 0).val = (i 0).val := by
  unfold DotDims.lhsIdx
  rw [dif_neg (show ¬(0 : Fin S512x10.rank) ∈ dot_S512x10_S10x1034_S512x1034_1_0_0_1_n_n.lhsBatch by decide), dif_pos (show (0 : Fin S512x10.rank) ∈ dot_S512x10_S10x1034_S512x1034_1_0_0_1_n_n.lhsNonContracting by decide)]
  rfl
private theorem lhs_hidB_1 (i : S512x1034.Idx) (q : dot_S512x10_S10x1034_S512x1034_1_0_0_1_n_n.contr.Idx) :
    (dot_S512x10_S10x1034_S512x1034_1_0_0_1_n_n.lhsIdx i q 1).val = (q ⟨0, by decide⟩).val :=
  dot_S512x10_S10x1034_S512x1034_1_0_0_1_n_n.lhsIdx_val_of_single rfl i q
private theorem rhs_hidB_0 (i : S512x1034.Idx) (q : dot_S512x10_S10x1034_S512x1034_1_0_0_1_n_n.contr.Idx) :
    (dot_S512x10_S10x1034_S512x1034_1_0_0_1_n_n.rhsIdx i q 0).val = (q ⟨0, by decide⟩).val :=
  dot_S512x10_S10x1034_S512x1034_1_0_0_1_n_n.rhsIdx_val_of_single rfl i q
private theorem rhs_hidB_1 (i : S512x1034.Idx) (q : dot_S512x10_S10x1034_S512x1034_1_0_0_1_n_n.contr.Idx) :
    (dot_S512x10_S10x1034_S512x1034_1_0_0_1_n_n.rhsIdx i q 1).val = (i 1).val := by
  unfold DotDims.rhsIdx
  rw [dif_neg (show ¬(1 : Fin S10x1034.rank) ∈ dot_S512x10_S10x1034_S512x1034_1_0_0_1_n_n.rhsBatch by decide), dif_pos (show (1 : Fin S10x1034.rank) ∈ dot_S512x10_S10x1034_S512x1034_1_0_0_1_n_n.rhsNonContracting by decide)]
  rfl

/-- The first layer's contraction over the ten features, at row `p`, entry `j`. -/
private theorem matmul_hidB_apply (lhs : FVec Ideal S512x10 .bf16) (rhs : FVec Ideal S10x1034 .bf16) (p : Fin 512) (j : Fin 1034) :
    matmul dot_S512x10_S10x1034_S512x1034_1_0_0_1_n_n none lhs rhs (constant (F := Ideal) S512x1034 .f32 0x00000000#32) (ix2 p j)
      = ∑ k : Fin 10, lhs (ix2 p k) * rhs (ix2 k j) := by
  simp only [matmul]
  rw [Ideal.matmul_constant_zero_apply, ← Equiv.sum_comp (contrEquiv1 dot_S512x10_S10x1034_S512x1034_1_0_0_1_n_n 10 rfl rfl).symm]
  refine Finset.sum_congr rfl fun k _ => ?_
  have hk := contrEquiv1_symm_val dot_S512x10_S10x1034_S512x1034_1_0_0_1_n_n 10 rfl rfl k
  have el : dot_S512x10_S10x1034_S512x1034_1_0_0_1_n_n.lhsIdx (ix2 p j) ((contrEquiv1 dot_S512x10_S10x1034_S512x1034_1_0_0_1_n_n 10 rfl rfl).symm k) = ix2 p k := funext fun a => Fin.ext (by
    match a with
    | ⟨0, _⟩ => exact lhs_hidB_0 _ _
    | ⟨1, _⟩ => exact (lhs_hidB_1 _ _).trans hk)
  have er : dot_S512x10_S10x1034_S512x1034_1_0_0_1_n_n.rhsIdx (ix2 p j) ((contrEquiv1 dot_S512x10_S10x1034_S512x1034_1_0_0_1_n_n 10 rfl rfl).symm k) = ix2 k j := funext fun a => Fin.ext (by
    match a with
    | ⟨0, _⟩ => exact (rhs_hidB_0 _ _).trans hk
    | ⟨1, _⟩ => exact rhs_hidB_1 _ _)
  rw [el, er]

private theorem lhs_out_0 (i : S512x3.Idx) (q : dot_S512x1034_S1034x3_S512x3_1_0_0_1_n_n.contr.Idx) :
    (dot_S512x1034_S1034x3_S512x3_1_0_0_1_n_n.lhsIdx i q 0).val = (i 0).val := by
  unfold DotDims.lhsIdx
  rw [dif_neg (show ¬(0 : Fin S512x1034.rank) ∈ dot_S512x1034_S1034x3_S512x3_1_0_0_1_n_n.lhsBatch by decide), dif_pos (show (0 : Fin S512x1034.rank) ∈ dot_S512x1034_S1034x3_S512x3_1_0_0_1_n_n.lhsNonContracting by decide)]
  rfl
private theorem lhs_out_1 (i : S512x3.Idx) (q : dot_S512x1034_S1034x3_S512x3_1_0_0_1_n_n.contr.Idx) :
    (dot_S512x1034_S1034x3_S512x3_1_0_0_1_n_n.lhsIdx i q 1).val = (q ⟨0, by decide⟩).val :=
  dot_S512x1034_S1034x3_S512x3_1_0_0_1_n_n.lhsIdx_val_of_single rfl i q
private theorem rhs_out_0 (i : S512x3.Idx) (q : dot_S512x1034_S1034x3_S512x3_1_0_0_1_n_n.contr.Idx) :
    (dot_S512x1034_S1034x3_S512x3_1_0_0_1_n_n.rhsIdx i q 0).val = (q ⟨0, by decide⟩).val :=
  dot_S512x1034_S1034x3_S512x3_1_0_0_1_n_n.rhsIdx_val_of_single rfl i q
private theorem rhs_out_1 (i : S512x3.Idx) (q : dot_S512x1034_S1034x3_S512x3_1_0_0_1_n_n.contr.Idx) :
    (dot_S512x1034_S1034x3_S512x3_1_0_0_1_n_n.rhsIdx i q 1).val = (i 1).val := by
  unfold DotDims.rhsIdx
  rw [dif_neg (show ¬(1 : Fin S1034x3.rank) ∈ dot_S512x1034_S1034x3_S512x3_1_0_0_1_n_n.rhsBatch by decide), dif_pos (show (1 : Fin S1034x3.rank) ∈ dot_S512x1034_S1034x3_S512x3_1_0_0_1_n_n.rhsNonContracting by decide)]
  rfl

/-- The second layer's contraction over the 1034 hidden entries, at row `p`, entry `j`. -/
private theorem matmul_out_apply (lhs : FVec Ideal S512x1034 .bf16) (rhs : FVec Ideal S1034x3 .bf16) (p : Fin 512) (j : Fin 3) :
    matmul dot_S512x1034_S1034x3_S512x3_1_0_0_1_n_n none lhs rhs (constant (F := Ideal) S512x3 .f32 0x00000000#32) (ix2 p j)
      = ∑ k : Fin 1034, lhs (ix2 p k) * rhs (ix2 k j) := by
  simp only [matmul]
  rw [Ideal.matmul_constant_zero_apply, ← Equiv.sum_comp (contrEquiv1 dot_S512x1034_S1034x3_S512x3_1_0_0_1_n_n 1034 rfl rfl).symm]
  refine Finset.sum_congr rfl fun k _ => ?_
  have hk := contrEquiv1_symm_val dot_S512x1034_S1034x3_S512x3_1_0_0_1_n_n 1034 rfl rfl k
  have el : dot_S512x1034_S1034x3_S512x3_1_0_0_1_n_n.lhsIdx (ix2 p j) ((contrEquiv1 dot_S512x1034_S1034x3_S512x3_1_0_0_1_n_n 1034 rfl rfl).symm k) = ix2 p k := funext fun a => Fin.ext (by
    match a with
    | ⟨0, _⟩ => exact lhs_out_0 _ _
    | ⟨1, _⟩ => exact (lhs_out_1 _ _).trans hk)
  have er : dot_S512x1034_S1034x3_S512x3_1_0_0_1_n_n.rhsIdx (ix2 p j) ((contrEquiv1 dot_S512x1034_S1034x3_S512x3_1_0_0_1_n_n 1034 rfl rfl).symm k) = ix2 k j := funext fun a => Fin.ext (by
    match a with
    | ⟨0, _⟩ => exact (rhs_out_0 _ _).trans hk
    | ⟨1, _⟩ => exact rhs_out_1 _ _)
  rw [el, er]

/-! ## The norm of the state row and the ten joined columns -/

/-- A square root of a vector reads pointwise. -/
private theorem sqrt_apply {s : Shape} {φ : FTy} (a : FVec Ideal s φ) (i : s.Idx) : sqrt a i = Ideal.sqrt (a i) := rfl

/-- A lane sum over a block of 512 rows, at row `p`: the sum over the row's 1024 entries. -/
private theorem laneSum_apply (src : FVec Ideal S512x1024 .f32) (h : S512x1024.Reduces [1] S512) (hφ : FKind.Formats .f32)
    (hacc : (0x00000000#32 : BitVec 32) = 0x00000000#32) (p : Fin 512) :
    multiReduction (F := Ideal) .add [1] S512 src 0x00000000#32 h hφ hacc (ix1 p) = ∑ k : Fin 1024, src (ix2 p k) := by
  refine (Ideal.multiReduction_add_single src 0x00000000#32 h hφ hacc (ix1 p)).trans ?_
  refine Finset.sum_congr rfl fun k _ => congrArg src ?_
  exact funext fun c => Fin.ext (by match c with | ⟨0, _⟩ => rfl | ⟨1, _⟩ => rfl)

/-- The norm column of a block at row `p`: the Euclidean norm of the block's row `p`. -/
private theorem nrmCol_apply (v0 : Vec Ideal S512x1024 .f32) (h : S512x1024.Reduces [1] S512) (hφ : FKind.Formats .f32)
    (hacc : (0x00000000#32 : BitVec 32) = 0x00000000#32) (hc : S512.ShapeCasts S512x1) (p : Fin 512) :
    sqrt (shapeCast S512x1 (multiReduction (F := Ideal) .add [1] S512 (mulf v0 v0) 0x00000000#32 h hφ hacc) hc) (ix2 p (0 : Fin 1))
      = nrm (fun k => v0 (ix2 p k)) := by
  show Ideal.sqrt (shapeCast S512x1 (multiReduction (F := Ideal) .add [1] S512 (mulf v0 v0) 0x00000000#32 h hφ hacc) hc (ix2 p (0 : Fin 1))) = _
  rw [Cert.Lib.Column.shapeCast_a_a1_apply, laneSum_apply]
  rfl

/-- Ten columns joined side by side, read at row `p` and column `k`: column `k` at row `p`. -/
private theorem concat10_apply {α : Type} (b0 b1 b2 b3 b4 b5 b6 b7 b8 b9 : S512x1.Idx → α)
    (h : Shape.Concatenates [S512x1, S512x1, S512x1, S512x1, S512x1, S512x1, S512x1, S512x1, S512x1, S512x1] S512x10 1)
    (p : Fin 512) (k : Fin 10) :
    concatenate S512x10 1 [⟨S512x1, b0⟩, ⟨S512x1, b1⟩, ⟨S512x1, b2⟩, ⟨S512x1, b3⟩, ⟨S512x1, b4⟩, ⟨S512x1, b5⟩, ⟨S512x1, b6⟩, ⟨S512x1, b7⟩, ⟨S512x1, b8⟩, ⟨S512x1, b9⟩] h (ix2 p k)
      = ![b0 (ix2 p (0 : Fin 1)), b1 (ix2 p (0 : Fin 1)), b2 (ix2 p (0 : Fin 1)), b3 (ix2 p (0 : Fin 1)), b4 (ix2 p (0 : Fin 1)), b5 (ix2 p (0 : Fin 1)), b6 (ix2 p (0 : Fin 1)), b7 (ix2 p (0 : Fin 1)), b8 (ix2 p (0 : Fin 1)), b9 (ix2 p (0 : Fin 1))] k := by
  have key := concatenate_ofFn_unit_apply (t := S512x10) (s₁ := S512x1) (1 : Fin S512x10.rank)
    (![b0, b1, b2, b3, b4, b5, b6, b7, b8, b9] : Fin 10 → (S512x1.Idx → α)) h rfl rfl (ix2 p k) k rfl (ix2 p (0 : Fin 1))
    (fun b hb => by match b with | ⟨0, _⟩ => rfl | ⟨1, _⟩ => exact absurd rfl hb)
  refine key.trans ?_
  fin_cases k <;> rfl

/-- The ten features as the body joins them, from the column values it has computed before, at row `p`. -/
def featAt (v0 : Vec Ideal S512x1024 .f32) (a7 a10 a11 a12 a16 a20 a23 a27 a31 a33 a35 a37 a38 : FVec Ideal S512x1 .f32)
    (p : Fin 512) : Fin 10 → EReal :=
  ![a33 (ix2 p (0 : Fin 1)),
    a35 (ix2 p (0 : Fin 1)),
    c1 * (a37 (ix2 p (0 : Fin 1)) * a38 (ix2 p (0 : Fin 1))),
    (c1 - a33 (ix2 p (0 : Fin 1))) * ch,
    Ideal.sqrt (max (a7 (ix2 p (0 : Fin 1)) + a10 (ix2 p (0 : Fin 1)) - c2 * a23 (ix2 p (0 : Fin 1))) 0),
    a11 (ix2 p (0 : Fin 1)),
    a12 (ix2 p (0 : Fin 1)),
    nrm (fun k => v0 (ix2 p k)),
    a27 (ix2 p (0 : Fin 1)) * a16 (ix2 p (0 : Fin 1)),
    a31 (ix2 p (0 : Fin 1)) * a20 (ix2 p (0 : Fin 1))]

/-- The first layer at row `p`, entry `j`. -/
theorem pay18_apply (v0 : Vec Ideal S512x1024 .f32) (a7 a10 a11 a12 a16 a20 a23 a27 a31 a33 a35 a37 a38 : FVec Ideal S512x1 .f32)
    (v60 : Vec Ideal S1024x1034 .bf16) (v62 : Vec Ideal S10x1034 .bf16) (v64 : Vec Ideal S1x1034 .f32) (p : Fin 512) (j : Fin 1034) :
    k0_pay18 (F := Ideal) v0 a7 a10 a11 a12 a16 a20 a23 a27 a31 a33 a35 a37 a38 v60 v62 v64 (ix2 p j)
      = hidSplit (fun k => v0 (ix2 p k)) (featAt v0 a7 a10 a11 a12 a16 a20 a23 a27 a31 a33 a35 a37 a38 p)
          (fun k j => v60 (ix2 k j)) (fun k j => v62 (ix2 k j)) (fun j => v64 (ix2 (0 : Fin 1) j)) j := by
  unfold k0_pay18
  -- the rectifier, the two sums and the bias row are pointwise; the narrowing casts and the identity reshapes change nothing
  simp only [truncf_apply, maximumf_apply, addf_apply, broadcast_apply, shapeCast_self]
  rw [matmul_hidA_apply, matmul_hidB_apply, broadcastTo_1b_ab_apply]
  -- the second contraction's left operand at `(p, k)` is column `k` of the ten joined columns at row `p`
  simp only [truncf_apply, concat10_apply]
  rw [nrmCol_apply]
  simp only [sqrt_apply, mulf_apply, subf_apply, addf_apply, maximumf_apply, broadcast_apply, Ideal.ofBits_def, Ideal.ofBits_zero_f32]
  rfl

/-- The second layer at row `p`, entry `q`, over any hidden block. -/
theorem pay1_apply (v76 : FVec Ideal S1034x3 .bf16) (v78 : FVec Ideal S1x3 .f32) (v79 : FVec Ideal S512x1034 .bf16) (p : Fin 512) (q : Fin 3) :
    k0_pay1 (F := Ideal) v76 v78 v79 (ix2 p q)
      = outT (fun j => v79 (ix2 p j)) (fun j c => v76 (ix2 j c)) (fun c => v78 (ix2 (0 : Fin 1) c)) q := by
  unfold k0_pay1
  show matmul dot_S512x1034_S1034x3_S512x3_1_0_0_1_n_n none v79 v76 (constant (F := Ideal) S512x3 .f32 0x00000000#32) (ix2 p q)
      + broadcastTo S512x3 v78 broadcasts_S1x3_S512x3 (ix2 p q) = _
  rw [matmul_out_apply, broadcastTo_1b_ab_apply]
  rfl

end Cert.KernelIdeal.Body

end
-- ==== Proof.KerBody.lean ====
/-
  What the kernel body leaves in its output block, read at row `p` and entry `q`: the second spelling of a result
  row, over row `p` of the three input blocks and the prepared arrays.
-/
import proofs.«405241_j66417374265586_3_alg».proof.Proof.Gen.KernelIdeal.Frame
import proofs.«405241_j66417374265586_3_alg».proof.Proof.KerFeat
import proofs.«405241_j66417374265586_3_alg».proof.Proof.KerMlp

noncomputable section

namespace Cert.KernelIdeal.Body

open Cert.KernelIdeal Cert.KernelIdeal.Gen Idealize.ShloMosaic Idealize.ShloMosaic.ValueIdx
open Cert.Nli

/-- The offsets of a whole-buffer rectangle are zero. -/
private theorem offs_zero : (![0, 0] : Fin 2 → Nat) = fun _ => 0 := funext fun a => by fin_cases a <;> rfl

theorem out_apply (x0 x1 x2 : Vec Ideal S512x1024 .f32) (x3 : Vec Ideal S1x1024 .f32) (x4 : Vec Ideal S1024x1034 .bf16)
    (x5 : Vec Ideal S10x1034 .bf16) (x6 : Vec Ideal S1x1034 .f32) (x7 : Vec Ideal S1034x3 .bf16) (x8 : Vec Ideal S1x3 .f32)
    (p : Fin 512) (q : Fin 3) :
    out0_9 (F := Ideal) x0 x1 x2 x3 x4 x5 x6 x7 x8 (ix2 p q)
      = rowSplit (fun k => x0 (ix2 p k)) (fun k => x1 (ix2 p k)) (fun k => x2 (ix2 p k)) (fun k => x3 (ix2 (0 : Fin 1) k))
          (fun k j => x4 (ix2 k j)) (fun k j => x5 (ix2 k j)) (fun j => x6 (ix2 (0 : Fin 1) j)) (fun j c => x7 (ix2 j c))
          (fun c => x8 (ix2 (0 : Fin 1) c)) q := by
  unfold out0_9
  -- every rectangle is the whole buffer: the store leaves its payload, each load reads its block
  rw [View.canon_unit_zero offs_zero]
  simp only [View.ld_unit_zero (S := S512x1024) offs_zero, View.ld_unit_zero (S := S1x1024) offs_zero,
    View.ld_unit_zero (S := S1024x1034) offs_zero, View.ld_unit_zero (S := S10x1034) offs_zero,
    View.ld_unit_zero (S := S1x1034) offs_zero, View.ld_unit_zero (S := S1034x3) offs_zero,
    View.ld_unit_zero (S := S1x3) offs_zero]
  -- the second layer's weights and bias pass through identity reshapes
  have hW : k0_pay16 (F := Ideal) x7 = x7 := by unfold k0_pay16; exact shapeCast_self _ _
  have hB : k0_pay17 (F := Ideal) x8 = x8 := by unfold k0_pay17; exact shapeCast_self _ _
  rw [pay1_apply, hW, hB]
  simp only [pay18_apply]
  -- the ten joined features are the ten raw-product features of the row's vectors
  have hf : featAt x0 (k0_pay3 x1) (k0_pay4 x2) (k0_pay5 x1) (k0_pay6 x2) (k0_pay7 x1) (k0_pay8 x2) (k0_pay9 x1 x2)
      (k0_pay10 x1 x3) (k0_pay11 x2 x3) (k0_pay12 x1 x2) (k0_pay13 x1 x2) (k0_pay14 x1 x2) (k0_pay15 (F := Ideal)) p
      = rawFeat (fun k => x1 (ix2 p k)) (fun k => x2 (ix2 p k)) (fun k => x0 (ix2 p k)) (fun k => x3 (ix2 (0 : Fin 1) k)) := by
    unfold featAt rawFeat
    simp only [pay3_apply, pay4_apply, pay5_apply, pay6_apply, pay7_apply, pay8_apply, pay9_apply, pay10_apply, pay11_apply,
      pay12_apply, pay13_apply, pay14_apply, pay15_apply]
  rw [hf]
  rfl

end Cert.KernelIdeal.Body

end
-- ==== Proof.KerValue.lean ====
/-
  The kernel program's result array after its run: every row block of 512 rows is written by one grid point, the
  blocks tile the array, and what a point writes at row `p`, entry `q` of its block is the second spelling of the
  specification's row `512 t + p`, over the argument arrays and the arrays prepared on the host.
-/
import proofs.«405241_j66417374265586_3_alg».proof.Proof.Gen.KernelIdeal.Value
import proofs.«405241_j66417374265586_3_alg».proof.Proof.KerHost
import proofs.«405241_j66417374265586_3_alg».proof.Proof.KerBody
import Idealize.ShloMosaic.Lib.Pipeline.Value
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.KerValue

open Cert.KernelIdeal Cert.KernelIdeal.Gen Cert.KernelIdeal.Value Cert.Nli

variable (m : (ℓ : Loc nD τ sig) → Buf (Elt Ideal) ℓ) (ρ : Dev nD → PrngReg)

/-- The result array as one function of the nine argument arrays: row `i 0`, entry `i 1` of `Gker`. -/
def Gk (c : Dev nD) : S16384x3.Idx → EReal := fun i =>
  Gker (fun b k => (m ((c : Thread nD τ).loc main_arg0) : S16384x1024.Idx → EReal) (ix2 b k))
    (fun b k => (m ((c : Thread nD τ).loc main_arg1) : S16384x1024.Idx → EReal) (ix2 b k))
    (fun b k => (m ((c : Thread nD τ).loc main_arg2) : S16384x1024.Idx → EReal) (ix2 b k))
    (fun k => (m ((c : Thread nD τ).loc main_arg3) : S1024.Idx → EReal) (ix1 k))
    ((m ((c : Thread nD τ).loc main_arg4) : S_.Idx → EReal) ix0)
    (fun j k => (m ((c : Thread nD τ).loc main_arg5) : S1034x1034.Idx → EReal) (ix2 j k))
    (fun j => (m ((c : Thread nD τ).loc main_arg6) : S1034.Idx → EReal) (ix1 j))
    (fun q j => (m ((c : Thread nD τ).loc main_arg7) : S3x1034.Idx → EReal) (ix2 q j))
    (fun q => (m ((c : Thread nD τ).loc main_arg8) : S3.Idx → EReal) (ix1 q))
    ⟨(i 0).val, (i 0).isLt⟩ ⟨(i 1).val, (i 1).isLt⟩

/-- The block index maps over the 32 grid points: the three row-blocked inputs and the output are at block
    `(t, 0)`, the six prepared arrays at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

theorem t_lt (t : Fin cfg0.N) : t.val < 32 := by
  have h1 := t.isLt
  have h2 : cfg0.N = 32 := N_0
  omega

/-- Block `t` of a row-blocked input, read at row `p`: row `512 t + p` of the argument array. -/
theorem iblk0_apply (c : Dev nD) (t : Fin cfg0.N) (p : Fin 512) (k : Fin 1024) (b : Fin 16384) (hb : b.val = 512 * t.val + p.val) :
    (iblk m c 0 t : Vec Ideal S512x1024 .f32) (ix2 p k)
      = (m ((c : Thread nD τ).loc main_arg0) : S16384x1024.Idx → EReal) (ix2 b k) := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 512 + 1 * p.val = b.val; rw [h0, hb]; omega
  | ⟨1, _⟩ => show win0_0.index t 1 * 1024 + 1 * k.val = k.val; rw [h1]; omega

theorem iblk1_apply (c : Dev nD) (t : Fin cfg0.N) (p : Fin 512) (k : Fin 1024) (b : Fin 16384) (hb : b.val = 512 * t.val + p.val) :
    (iblk m c 1 t : Vec Ideal S512x1024 .f32) (ix2 p k)
      = (m ((c : Thread nD τ).loc main_arg1) : S16384x1024.Idx → EReal) (ix2 b k) := by
  obtain ⟨h0, h1⟩ := (idx_facts t).2.1
  unfold iblk
  rw [View.read_apply]
  show V m c main_arg1 _ = _
  rw [V_main_arg1]
  congr 1
  funext a
  apply Fin.ext
  match a with
  | ⟨0, _⟩ => show win0_1.index t 0 * 512 + 1 * p.val = b.val; rw [h0, hb]; omega
  | ⟨1, _⟩ => show win0_1.index t 1 * 1024 + 1 * k.val = k.val; rw [h1]; omega

theorem iblk2_apply (c : Dev nD) (t : Fin cfg0.N) (p : Fin 512) (k : Fin 1024) (b : Fin 16384) (hb : b.val = 512 * t.val + p.val) :
    (iblk m c 2 t : Vec Ideal S512x1024 .f32) (ix2 p k)
      = (m ((c : Thread nD τ).loc main_arg2) : S16384x1024.Idx → EReal) (ix2 b k) := by
  obtain ⟨h0, h1⟩ := (idx_facts t).2.2.1
  unfold iblk
  rw [View.read_apply]
  show V m c main_arg2 _ = _
  rw [V_main_arg2]
  congr 1
  funext a
  apply Fin.ext
  match a with
  | ⟨0, _⟩ => show win0_2.index t 0 * 512 + 1 * p.val = b.val; rw [h0, hb]; omega
  | ⟨1, _⟩ => show win0_2.index t 1 * 1024 + 1 * k.val = k.val; rw [h1]; omega

/-- Window 3 always stages the whole prepared array `main_v7`. -/
theorem iblk3_apply (c : Dev nD) (t : Fin cfg0.N) (a : Fin 1) (b : Fin 1024) :
    (iblk m c 3 t : Vec Ideal S1x1024 .f32) (ix2 a b) = (V m c main_v7 : S1x1024.Idx → EReal) (ix2 a b) := by
  obtain ⟨h0, h1⟩ := (idx_facts t).2.2.2.1
  unfold iblk
  rw [View.read_apply]
  show V m c main_v7 _ = _
  congr 1
  funext d
  apply Fin.ext
  match d with
  | ⟨0, _⟩ => show win0_3.index t 0 * 1 + 1 * a.val = a.val; rw [h0]; omega
  | ⟨1, _⟩ => show win0_3.index t 1 * 1024 + 1 * b.val = b.val; rw [h1]; omega

/-- Window 4 always stages the whole prepared array `main_v10`. -/
theorem iblk4_apply (c : Dev nD) (t : Fin cfg0.N) (a : Fin 1024) (b : Fin 1034) :
    (iblk m c 4 t : Vec Ideal S1024x1034 .bf16) (ix2 a b) = (V m c main_v10 : S1024x1034.Idx → EReal) (ix2 a b) := by
  obtain ⟨h0, h1⟩ := (idx_facts t).2.2.2.2.1
  unfold iblk
  rw [View.read_apply]
  show V m c main_v10 _ = _
  congr 1
  funext d
  apply Fin.ext
  match d with
  | ⟨0, _⟩ => show win0_4.index t 0 * 1024 + 1 * a.val = a.val; rw [h0]; omega
  | ⟨1, _⟩ => show win0_4.index t 1 * 1034 + 1 * b.val = b.val; rw [h1]; omega

/-- Window 5 always stages the whole prepared array `main_v11`. -/
theorem iblk5_apply (c : Dev nD) (t : Fin cfg0.N) (a : Fin 10) (b : Fin 1034) :
    (iblk m c 5 t : Vec Ideal S10x1034 .bf16) (ix2 a b) = (V m c main_v11 : S10x1034.Idx → EReal) (ix2 a b) := by
  obtain ⟨h0, h1⟩ := (idx_facts t).2.2.2.2.2.1
  unfold iblk
  rw [View.read_apply]
  show V m c main_v11 _ = _
  congr 1
  funext d
  apply Fin.ext
  match d with
  | ⟨0, _⟩ => show win0_5.index t 0 * 10 + 1 * a.val = a.val; rw [h0]; omega
  | ⟨1, _⟩ => show win0_5.index t 1 * 1034 + 1 * b.val = b.val; rw [h1]; omega

/-- Window 6 always stages the whole prepared array `main_v14`. -/
theorem iblk6_apply (c : Dev nD) (t : Fin cfg0.N) (a : Fin 1) (b : Fin 1034) :
    (iblk m c 6 t : Vec Ideal S1x1034 .f32) (ix2 a b) = (V m c main_v14 : S1x1034.Idx → EReal) (ix2 a b) := by
  obtain ⟨h0, h1⟩ := (idx_facts t).2.2.2.2.2.2.1
  unfold iblk
  rw [View.read_apply]
  show V m c main_v14 _ = _
  congr 1
  funext d
  apply Fin.ext
  match d with
  | ⟨0, _⟩ => show win0_6.index t 0 * 1 + 1 * a.val = a.val; rw [h0]; omega
  | ⟨1, _⟩ => show win0_6.index t 1 * 1034 + 1 * b.val = b.val; rw [h1]; omega

/-- Window 7 always stages the whole prepared array `main_v13`. -/
theorem iblk7_apply (c : Dev nD) (t : Fin cfg0.N) (a : Fin 1034) (b : Fin 3) :
    (iblk m c 7 t : Vec Ideal S1034x3 .bf16) (ix2 a b) = (V m c main_v13 : S1034x3.Idx → EReal) (ix2 a b) := by
  obtain ⟨h0, h1⟩ := (idx_facts t).2.2.2.2.2.2.2.1
  unfold iblk
  rw [View.read_apply]
  show V m c main_v13 _ = _
  congr 1
  funext d
  apply Fin.ext
  match d with
  | ⟨0, _⟩ => show win0_7.index t 0 * 1034 + 1 * a.val = a.val; rw [h0]; omega
  | ⟨1, _⟩ => show win0_7.index t 1 * 3 + 1 * b.val = b.val; rw [h1]; omega

/-- Window 8 always stages the whole prepared array `main_v15`. -/
theorem iblk8_apply (c : Dev nD) (t : Fin cfg0.N) (a : Fin 1) (b : Fin 3) :
    (iblk m c 8 t : Vec Ideal S1x3 .f32) (ix2 a b) = (V m c main_v15 : S1x3.Idx → EReal) (ix2 a b) := by
  obtain ⟨h0, h1⟩ := (idx_facts t).2.2.2.2.2.2.2.2.1
  unfold iblk
  rw [View.read_apply]
  show V m c main_v15 _ = _
  congr 1
  funext d
  apply Fin.ext
  match d with
  | ⟨0, _⟩ => show win0_8.index t 0 * 1 + 1 * a.val = a.val; rw [h0]; omega
  | ⟨1, _⟩ => show win0_8.index t 1 * 3 + 1 * b.val = b.val; rw [h1]; omega

/-- What the body leaves in its output block at an index `j`: the second spelling of a result row over row `j 0` of
    the three row-blocked input blocks and the six prepared blocks, at entry `j 1`. -/
theorem block_apply (x0 x1 x2 : Vec Ideal S512x1024 .f32) (x3 : Vec Ideal S1x1024 .f32) (x4 : Vec Ideal S1024x1034 .bf16)
    (x5 : Vec Ideal S10x1034 .bf16) (x6 : Vec Ideal S1x1034 .f32) (x7 : Vec Ideal S1034x3 .bf16) (x8 : Vec Ideal S1x3 .f32)
    (j : S512x3.Idx) :
    out0_9 (F := Ideal) x0 x1 x2 x3 x4 x5 x6 x7 x8 j
      = rowSplit (fun k => x0 (ix2 (⟨(j 0).val, (j 0).isLt⟩ : Fin 512) k)) (fun k => x1 (ix2 (⟨(j 0).val, (j 0).isLt⟩ : Fin 512) k))
          (fun k => x2 (ix2 (⟨(j 0).val, (j 0).isLt⟩ : Fin 512) k)) (fun k => x3 (ix2 (0 : Fin 1) k))
          (fun k j' => x4 (ix2 k j')) (fun k j' => x5 (ix2 k j')) (fun j' => x6 (ix2 (0 : Fin 1) j')) (fun j' q => x7 (ix2 j' q))
          (fun q => x8 (ix2 (0 : Fin 1) q)) (⟨(j 1).val, (j 1).isLt⟩ : Fin 3) := by
  obtain ⟨p, q, rfl⟩ : ∃ (p : Fin 512) (q : Fin 3), j = ix2 p q := ⟨j 0, j 1, eq_ix2 j⟩
  exact Cert.KernelIdeal.Body.out_apply x0 x1 x2 x3 x4 x5 x6 x7 x8 p q

/-- Two rows of the second spelling agree when their ingredients do. -/
theorem rowSplit_congr {z z' x x' y y' w w' : Row} {Wt Wt' : Fin 1024 → Fin 1034 → EReal} {Wb Wb' : Fin 10 → Fin 1034 → EReal}
    {B1 B1' : Fin 1034 → EReal} {W2t W2t' : Fin 1034 → Fin 3 → EReal} {B2 B2' : Fin 3 → EReal} {q q' : Fin 3}
    (hz : z = z') (hx : x = x') (hy : y = y') (hw : w = w') (hWt : Wt = Wt') (hWb : Wb = Wb') (hB1 : B1 = B1')
    (hW2 : W2t = W2t') (hB2 : B2 = B2') (hq : q = q') :
    rowSplit z x y w Wt Wb B1 W2t B2 q = rowSplit z' x' y' w' Wt' Wb' B1' W2t' B2' q' := by
  subst hz hx hy hw hWt hWb hB1 hW2 hB2 hq
  rfl

/-- WHAT POINT `t` WRITES BACK is block `t` of `Gk`: row `p` of the point's block is row `512 t + p` of the array. -/
theorem flushed_eq (c : Dev nD) (t : Fin cfg0.N) :
    (dats m 0 c).flushed 9 t = ((cfg0.win 9).blk t).view.read (Elt Ideal) (Gk m c) := by
  rw [flushed9]
  funext j
  show out0_9 (iblk m c 0 t) (iblk m c 1 t) (iblk m c 2 t) (iblk m c 3 t) (iblk m c 4 t) (iblk m c 5 t) (iblk m c 6 t)
      (iblk m c 7 t) (iblk m c 8 t) j = Gk m c (((cfg0.win 9).blk t).view.emb j)
  refine (block_apply _ _ _ _ _ _ _ _ _ j).trans ?_
  obtain ⟨h0, h1⟩ := (idx_facts t).2.2.2.2.2.2.2.2.2
  have hj0 : (j 0).val < 512 := (j 0).isLt
  have hj1 : (j 1).val < 3 := (j 1).isLt
  have ht := t_lt t
  have e0 : ((((cfg0.win 9).blk t).view.emb j) 0).val = 512 * t.val + (j 0).val := by
    show win0_9.index t 0 * 512 + 1 * (j 0).val = _
    rw [h0]; omega
  have e1 : ((((cfg0.win 9).blk t).view.emb j) 1).val = (j 1).val := by
    show win0_9.index t 1 * 3 + 1 * (j 1).val = _
    rw [h1]; omega
  unfold Gk Gker
  refine rowSplit_congr ?_ ?_ ?_ ?_ ?_ ?_ ?_ ?_ ?_ ?_
  · funext k; exact iblk0_apply m c t _ k _ e0
  · funext k; exact iblk1_apply m c t _ k _ e0
  · funext k; exact iblk2_apply m c t _ k _ e0
  · funext k; rw [iblk3_apply]; exact Cert.KernelIdeal.HostVal.V_v7 m c k
  · funext k j'; rw [iblk4_apply]; exact Cert.KernelIdeal.HostVal.V_v10 m c k j'
  · funext k j'; rw [iblk5_apply]; exact Cert.KernelIdeal.HostVal.V_v11 m c k j'
  · funext j'; rw [iblk6_apply]; exact Cert.KernelIdeal.HostVal.V_v14 m c j'
  · funext j' q; rw [iblk7_apply]; exact Cert.KernelIdeal.HostVal.V_v13 m c j' q
  · funext q; rw [iblk8_apply]; exact Cert.KernelIdeal.HostVal.V_v15 m c q
  · exact Fin.ext e1.symm

/-- The 32 blocks of 512 rows tile the array: row `r` lies in the block of point `r / 512`. -/
theorem cover (i : S16384x3.Idx) :
    ∃ t : Fin cfg0.N, (cfg0.win 9).flush t = true ∧ i ∈ ((cfg0.win 9).blk t).view.set := by
  have hi0 : (i 0).val < 16384 := (i 0).isLt
  have hi1 : (i 1).val < 3 := (i 1).isLt
  have hN : cfg0.N = 32 := N_0
  have ht : (i 0).val / 512 < cfg0.N := by omega
  obtain ⟨h0, h1⟩ := (idx_facts ⟨(i 0).val / 512, ht⟩).2.2.2.2.2.2.2.2.2
  refine ⟨⟨(i 0).val / 512, ht⟩, flush0_9 _, ?_⟩
  show i ∈ ((View.whole main_v16).slice (win0_9.rect ⟨(i 0).val / 512, ht⟩)).set
  rw [View.set_slice_whole, Rect.mem_set_unit]
  intro a
  match a with
  | ⟨0, _⟩ =>
    show win0_9.index ⟨(i 0).val / 512, ht⟩ (0 : Fin 2) * 512 ≤ (i 0).val
      ∧ (i 0).val < win0_9.index ⟨(i 0).val / 512, ht⟩ (0 : Fin 2) * 512 + 512
    rw [h0]
    show (i 0).val / 512 * 512 ≤ (i 0).val ∧ (i 0).val < (i 0).val / 512 * 512 + 512
    omega
  | ⟨1, _⟩ =>
    show win0_9.index ⟨(i 0).val / 512, ht⟩ (1 : Fin 2) * 3 ≤ (i 1).val
      ∧ (i 1).val < win0_9.index ⟨(i 0).val / 512, ht⟩ (1 : Fin 2) * 3 + 3
    rw [h1]
    omega

/-- THE ARRAY after the run is `Gk` of the argument arrays. -/
theorem final (c : Dev nD) : (dats m 0 c).arrAt 9 cfg0.N = Gk m c :=
  (dats m 0 c).arrAt_eq_of_cover 9 (Gk m c) (fun t _ => flushed_eq m c t) cover

end Cert.KernelIdeal.KerValue

end
-- ==== Proof.RefValue.lean ====
/-
  The reference program's result, read at row `b` and entry `q`, is the first spelling of the specification.
-/
import proofs.«405241_j66417374265586_3_alg».proof.Proof.Gen.ReferenceIdeal.Read
import proofs.«405241_j66417374265586_3_alg».proof.Proof.Spec
import proofs.«405241_j66417374265586_3_alg».proof.Proof.LibSumIdx
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Nli

/-- A batch array of rows. -/
private abbrev Rows := (⟨S16384x1024, .f32⟩ : BufTy).Contents (Elt Ideal)
/-- The neutral direction's array. -/
private abbrev Vec := (⟨S1024, .f32⟩ : BufTy).Contents (Elt Ideal)
/-- The scale's array. -/
private abbrev Scal := (⟨S_, .f32⟩ : BufTy).Contents (Elt Ideal)

/-! ### The norm of a row, its clamp, and the row divided by it -/

private theorem nrm_v0 (x : Rows) (b : Fin 16384) :
    val_main_v0 (F := Ideal) x (ix2 b (0 : Fin 1)) = nrm (fun k => x (ix2 b k)) := by
  have e : ∀ k : Fin 1024, idx_main_call0_v1 (idx_main_call0_v2 (ix2 b (0 : Fin 1))) k = ix2 b k := fun k =>
    funext fun a => Fin.ext (by match a with | ⟨0, _⟩ => rfl | ⟨1, _⟩ => rfl)
  rw [val_main_v0_apply, val_main_call0_v2_apply, val_main_call0_v1_apply]
  simp only [e, val_main_call0_v0_apply, val_main_call0_cst_apply, Ideal.hostUnary_sqrt_def, Ideal.mulf_def,
    Ideal.ofBits_def, Ideal.ofBits_zero_f32, zero_add]
  rfl

private theorem den_v2 (x : Rows) (b : Fin 16384) :
    val_main_v2 (F := Ideal) x (ix2 b (0 : Fin 1)) = den (fun k => x (ix2 b k)) := by
  rw [val_main_v2_apply, nrm_v0, val_main_v1_apply, val_main_cst_apply]
  rfl

private theorem normed_v4 (x : Rows) (b : Fin 16384) (k : Fin 1024) :
    val_main_v4 (F := Ideal) x (ix2 b k) = normed (fun k => x (ix2 b k)) k := by
  have e : idx_main_v3 (ix2 b k) = ix2 b (0 : Fin 1) :=
    funext fun a => Fin.ext (by match a with | ⟨0, _⟩ => rfl | ⟨1, _⟩ => rfl)
  rw [val_main_v4_apply, val_main_v3_apply, e, den_v2]
  rfl

/-- The second normalisation is the first one's term at the other argument. -/
private theorem v9_eq (x : Rows) : val_main_v9 (F := Ideal) x = val_main_v4 (F := Ideal) x := rfl

/-! ### The same for the neutral direction: its sum runs over the whole index set -/

private theorem nrm_v10 (x3 : Vec) :
    val_main_v10 (F := Ideal) x3 (ix1 (0 : Fin 1)) = nrm (fun k => x3 (ix1 k)) := by
  rw [val_main_v10_apply, val_main_call2_v2_apply, val_main_call2_v1_apply, Cert.SumIdx.sum_idx1]
  simp only [val_main_call2_v0_apply, val_main_call2_cst_apply, Ideal.hostUnary_sqrt_def, Ideal.mulf_def,
    Ideal.ofBits_def, Ideal.ofBits_zero_f32, zero_add]
  rfl

private theorem den_v12 (x3 : Vec) :
    val_main_v12 (F := Ideal) x3 (ix1 (0 : Fin 1)) = den (fun k => x3 (ix1 k)) := by
  rw [val_main_v12_apply, nrm_v10, val_main_v11_apply, val_main_cst_1_apply]
  rfl

private theorem normed_v14 (x3 : Vec) (k : Fin 1024) :
    val_main_v14 (F := Ideal) x3 (ix1 k) = normed (fun k => x3 (ix1 k)) k := by
  have e : idx_main_v13 (ix1 k) = ix1 (0 : Fin 1) :=
    funext fun a => Fin.ext (by match a with | ⟨0, _⟩ => rfl)
  rw [val_main_v14_apply, val_main_v13_apply, e, den_v12]
  rfl

/-! ### The ten feature columns at row `b` -/

private theorem f17 (x1 x2 : Rows) (b : Fin 16384) :
    val_main_v17 (F := Ideal) x1 x2 (ix2 b (0 : Fin 1))
      = dot (normed (fun k => x1 (ix2 b k))) (normed (fun k => x2 (ix2 b k))) := by
  have e : ∀ k : Fin 1024, idx_main_v16 (idx_main_v17 (ix2 b (0 : Fin 1))) k = ix2 b k := fun k =>
    funext fun a => Fin.ext (by match a with | ⟨0, _⟩ => rfl | ⟨1, _⟩ => rfl)
  rw [val_main_v17_apply, val_main_v16_apply]
  simp only [e, val_main_v15_apply, v9_eq, normed_v4, val_main_cst_2_apply, Ideal.mulf_def,
    Ideal.ofBits_def, Ideal.ofBits_zero_f32, zero_add]
  rfl

private theorem f21 (x1 x2 : Rows) (b : Fin 16384) :
    val_main_v21 (F := Ideal) x1 x2 (ix2 b (0 : Fin 1))
      = dot (fun k => -normed (fun k => x1 (ix2 b k)) k) (normed (fun k => x2 (ix2 b k))) := by
  have e : ∀ k : Fin 1024, idx_main_v20 (idx_main_v21 (ix2 b (0 : Fin 1))) k = ix2 b k := fun k =>
    funext fun a => Fin.ext (by match a with | ⟨0, _⟩ => rfl | ⟨1, _⟩ => rfl)
  rw [val_main_v21_apply, val_main_v20_apply]
  simp only [e, val_main_v19_apply, val_main_v18_apply, v9_eq, normed_v4, val_main_cst_3_apply, Ideal.mulf_def,
    Ideal.hostNegf_def, Ideal.negf_def, Ideal.ofBits_def, Ideal.ofBits_zero_f32, zero_add]
  rfl

private theorem f41 (x1 x2 : Rows) (b : Fin 16384) :
    val_main_v41 (F := Ideal) x1 x2 (ix2 b (0 : Fin 1))
      = c1 * ((c1 + dot (normed (fun k => x1 (ix2 b k))) (normed (fun k => x2 (ix2 b k)))) * ch) := by
  rw [val_main_v41_apply, val_main_v40_apply, val_main_cst_8_apply, val_main_v39_apply, val_main_v37_apply,
    val_main_v36_apply, val_main_cst_6_apply, f17, val_main_v38_apply, val_main_cst_7_apply]
  rfl

private theorem f45 (x1 x2 : Rows) (b : Fin 16384) :
    val_main_v45 (F := Ideal) x1 x2 (ix2 b (0 : Fin 1))
      = (c1 - dot (normed (fun k => x1 (ix2 b k))) (normed (fun k => x2 (ix2 b k)))) * ch := by
  rw [val_main_v45_apply, val_main_v43_apply, val_main_v42_apply, val_main_cst_9_apply, f17,
    val_main_v44_apply, val_main_cst_10_apply]
  rfl

/-- The norm of the difference: the norm's term at the difference of the two arrays. -/
private theorem f47 (x1 x2 : Rows) (b : Fin 16384) :
    val_main_v47 (F := Ideal) x1 x2 (ix2 b (0 : Fin 1)) = nrm (fun k => x2 (ix2 b k) - x1 (ix2 b k)) :=
  nrm_v0 (val_main_v46 (F := Ideal) x1 x2) b

private theorem f48 (x1 : Rows) (b : Fin 16384) :
    val_main_v48 (F := Ideal) x1 (ix2 b (0 : Fin 1)) = nrm (fun k => x1 (ix2 b k)) := nrm_v0 x1 b

private theorem f49 (x2 : Rows) (b : Fin 16384) :
    val_main_v49 (F := Ideal) x2 (ix2 b (0 : Fin 1)) = nrm (fun k => x2 (ix2 b k)) := nrm_v0 x2 b

private theorem f50 (x0 : Rows) (b : Fin 16384) :
    val_main_v50 (F := Ideal) x0 (ix2 b (0 : Fin 1)) = nrm (fun k => x0 (ix2 b k)) := nrm_v0 x0 b

private theorem f28 (x1 : Rows) (x3 : Vec) (x4 : Scal) (b : Fin 16384) :
    val_main_v28 (F := Ideal) x1 x3 x4 (ix2 b (0 : Fin 1))
      = x4 ix0 * dot (normed (fun k => x1 (ix2 b k))) (normed (fun k => x3 (ix1 k))) := by
  have e : ∀ k : Fin 1024, idx_main_v25 (idx_main_v26 (ix2 b (0 : Fin 1))) k = ix2 b k := fun k =>
    funext fun a => Fin.ext (by match a with | ⟨0, _⟩ => rfl | ⟨1, _⟩ => rfl)
  have e' : ∀ k : Fin 1024, idx_main_v22 (idx_main_v23 (ix2 b k)) = ix1 k := fun k =>
    funext fun a => Fin.ext (by match a with | ⟨0, _⟩ => rfl)
  have e4 : idx_main_v27 (ix2 b (0 : Fin 1)) = ix0 := rfl
  rw [val_main_v28_apply, val_main_v27_apply, e4, val_main_v26_apply, val_main_v25_apply]
  simp only [e, val_main_v24_apply, val_main_v23_apply, val_main_v22_apply, e', normed_v4, normed_v14,
    val_main_cst_4_apply, Ideal.mulf_def, Ideal.ofBits_def, Ideal.ofBits_zero_f32, zero_add]
  rfl

private theorem f35 (x2 : Rows) (x3 : Vec) (x4 : Scal) (b : Fin 16384) :
    val_main_v35 (F := Ideal) x2 x3 x4 (ix2 b (0 : Fin 1))
      = x4 ix0 * dot (normed (fun k => x2 (ix2 b k))) (normed (fun k => x3 (ix1 k))) := by
  have e : ∀ k : Fin 1024, idx_main_v32 (idx_main_v33 (ix2 b (0 : Fin 1))) k = ix2 b k := fun k =>
    funext fun a => Fin.ext (by match a with | ⟨0, _⟩ => rfl | ⟨1, _⟩ => rfl)
  have e' : ∀ k : Fin 1024, idx_main_v29 (idx_main_v30 (ix2 b k)) = ix1 k := fun k =>
    funext fun a => Fin.ext (by match a with | ⟨0, _⟩ => rfl)
  have e4 : idx_main_v34 (ix2 b (0 : Fin 1)) = ix0 := rfl
  rw [val_main_v35_apply, val_main_v34_apply, e4, val_main_v33_apply, val_main_v32_apply]
  simp only [e, val_main_v31_apply, val_main_v30_apply, val_main_v29_apply, e', v9_eq, normed_v4, normed_v14,
    val_main_cst_5_apply, Ideal.mulf_def, Ideal.ofBits_def, Ideal.ofBits_zero_f32, zero_add]
  rfl

/-! ### The concatenation: the row, then the ten columns -/

private abbrev Col := S16384x1.Idx → EReal

/-- The eleven pieces. -/
private abbrev pieces (y0 : S16384x1024.Idx → EReal) (y1 y2 y3 y4 y5 y6 y7 y8 y9 y10 : Col) :
    List ((s : Shape) × (s.Idx → EReal)) :=
  [⟨S16384x1024, y0⟩, ⟨S16384x1, y1⟩, ⟨S16384x1, y2⟩, ⟨S16384x1, y3⟩, ⟨S16384x1, y4⟩,
    ⟨S16384x1, y5⟩, ⟨S16384x1, y6⟩, ⟨S16384x1, y7⟩, ⟨S16384x1, y8⟩, ⟨S16384x1, y9⟩, ⟨S16384x1, y10⟩]

/-- Eleven pieces joined along the second axis, read at row `b` and entry `k`: the first piece below 1024, and from
    1024 on the piece numbered `k - 1023` at its only column. -/
private theorem concat_read (y0 : S16384x1024.Idx → EReal) (y1 y2 y3 y4 y5 y6 y7 y8 y9 y10 : Col) (b : Fin 16384) (k : Fin 1034) :
    concatenate S16384x1034 1 (pieces y0 y1 y2 y3 y4 y5 y6 y7 y8 y9 y10) concatenates_S16384x1024_S16384x1_S16384x1_S16384x1_S16384x1_S16384x1_S16384x1_S16384x1_S16384x1_S16384x1_S16384x1_S16384x1034_d1 (ix2 b k)
      = joined (fun k => y0 (ix2 b k))
          ![y1 (ix2 b (0 : Fin 1)), y2 (ix2 b (0 : Fin 1)), y3 (ix2 b (0 : Fin 1)), y4 (ix2 b (0 : Fin 1)),
            y5 (ix2 b (0 : Fin 1)), y6 (ix2 b (0 : Fin 1)), y7 (ix2 b (0 : Fin 1)), y8 (ix2 b (0 : Fin 1)),
            y9 (ix2 b (0 : Fin 1)), y10 (ix2 b (0 : Fin 1))] k := by
  obtain ⟨kv, hk⟩ := k
  by_cases h : kv < 1024
  · refine Eq.trans ?_ (dif_pos h).symm
    exact concatenate_apply_piece 1 (pieces y0 y1 y2 y3 y4 y5 y6 y7 y8 y9 y10) concatenates_S16384x1024_S16384x1_S16384x1_S16384x1_S16384x1_S16384x1_S16384x1_S16384x1_S16384x1_S16384x1_S16384x1_S16384x1034_d1 _ 0 (show 0 < 11 by decide)
      S16384x1024 y0 rfl rfl 0 rfl (ix2 b ⟨kv, h⟩)
      (fun a ha => by match a, ha with | ⟨0, _⟩, _ => rfl | ⟨1, _⟩, ha => exact absurd rfl ha) (Nat.zero_add _)
  · have hc : kv = 1024 ∨ kv = 1025 ∨ kv = 1026 ∨ kv = 1027 ∨ kv = 1028 ∨ kv = 1029 ∨ kv = 1030 ∨ kv = 1031
        ∨ kv = 1032 ∨ kv = 1033 := by omega
    -- off the joined axis a column's index and the result's agree
    have hi : ∀ a : Fin S16384x1.rank, a.cast (rfl : S16384x1.rank = S16384x1034.rank) ≠ (1 : Fin S16384x1034.rank) →
        ((ix2 b (0 : Fin 1) : S16384x1.Idx) a).val
          = ((ix2 b (⟨kv, hk⟩ : Fin 1034) : S16384x1034.Idx) (a.cast (rfl : S16384x1.rank = S16384x1034.rank))).val :=
      fun a ha => by match a, ha with | ⟨0, _⟩, _ => rfl | ⟨1, _⟩, ha => exact absurd rfl ha
    refine Eq.trans ?_ (dif_neg h).symm
    rcases hc with rfl | rfl | rfl | rfl | rfl | rfl | rfl | rfl | rfl | rfl
    · exact concatenate_apply_piece 1 (pieces y0 y1 y2 y3 y4 y5 y6 y7 y8 y9 y10) concatenates_S16384x1024_S16384x1_S16384x1_S16384x1_S16384x1_S16384x1_S16384x1_S16384x1_S16384x1_S16384x1_S16384x1_S16384x1034_d1 _ 1 (show 1 < 11 by decide)
        S16384x1 y1 rfl rfl 1024 rfl (ix2 b (0 : Fin 1)) hi rfl
    · exact concatenate_apply_piece 1 (pieces y0 y1 y2 y3 y4 y5 y6 y7 y8 y9 y10) concatenates_S16384x1024_S16384x1_S16384x1_S16384x1_S16384x1_S16384x1_S16384x1_S16384x1_S16384x1_S16384x1_S16384x1_S16384x1034_d1 _ 2 (show 2 < 11 by decide)
        S16384x1 y2 rfl rfl 1025 rfl (ix2 b (0 : Fin 1)) hi rfl
    · exact concatenate_apply_piece 1 (pieces y0 y1 y2 y3 y4 y5 y6 y7 y8 y9 y10) concatenates_S16384x1024_S16384x1_S16384x1_S16384x1_S16384x1_S16384x1_S16384x1_S16384x1_S16384x1_S16384x1_S16384x1_S16384x1034_d1 _ 3 (show 3 < 11 by decide)
        S16384x1 y3 rfl rfl 1026 rfl (ix2 b (0 : Fin 1)) hi rfl
    · exact concatenate_apply_piece 1 (pieces y0 y1 y2 y3 y4 y5 y6 y7 y8 y9 y10) concatenates_S16384x1024_S16384x1_S16384x1_S16384x1_S16384x1_S16384x1_S16384x1_S16384x1_S16384x1_S16384x1_S16384x1_S16384x1034_d1 _ 4 (show 4 < 11 by decide)
        S16384x1 y4 rfl rfl 1027 rfl (ix2 b (0 : Fin 1)) hi rfl
    · exact concatenate_apply_piece 1 (pieces y0 y1 y2 y3 y4 y5 y6 y7 y8 y9 y10) concatenates_S16384x1024_S16384x1_S16384x1_S16384x1_S16384x1_S16384x1_S16384x1_S16384x1_S16384x1_S16384x1_S16384x1_S16384x1034_d1 _ 5 (show 5 < 11 by decide)
        S16384x1 y5 rfl rfl 1028 rfl (ix2 b (0 : Fin 1)) hi rfl
    · exact concatenate_apply_piece 1 (pieces y0 y1 y2 y3 y4 y5 y6 y7 y8 y9 y10) concatenates_S16384x1024_S16384x1_S16384x1_S16384x1_S16384x1_S16384x1_S16384x1_S16384x1_S16384x1_S16384x1_S16384x1_S16384x1034_d1 _ 6 (show 6 < 11 by decide)
        S16384x1 y6 rfl rfl 1029 rfl (ix2 b (0 : Fin 1)) hi rfl
    · exact concatenate_apply_piece 1 (pieces y0 y1 y2 y3 y4 y5 y6 y7 y8 y9 y10) concatenates_S16384x1024_S16384x1_S16384x1_S16384x1_S16384x1_S16384x1_S16384x1_S16384x1_S16384x1_S16384x1_S16384x1_S16384x1034_d1 _ 7 (show 7 < 11 by decide)
        S16384x1 y7 rfl rfl 1030 rfl (ix2 b (0 : Fin 1)) hi rfl
    · exact concatenate_apply_piece 1 (pieces y0 y1 y2 y3 y4 y5 y6 y7 y8 y9 y10) concatenates_S16384x1024_S16384x1_S16384x1_S16384x1_S16384x1_S16384x1_S16384x1_S16384x1_S16384x1_S16384x1_S16384x1_S16384x1034_d1 _ 8 (show 8 < 11 by decide)
        S16384x1 y8 rfl rfl 1031 rfl (ix2 b (0 : Fin 1)) hi rfl
    · exact concatenate_apply_piece 1 (pieces y0 y1 y2 y3 y4 y5 y6 y7 y8 y9 y10) concatenates_S16384x1024_S16384x1_S16384x1_S16384x1_S16384x1_S16384x1_S16384x1_S16384x1_S16384x1_S16384x1_S16384x1_S16384x1034_d1 _ 9 (show 9 < 11 by decide)
        S16384x1 y9 rfl rfl 1032 rfl (ix2 b (0 : Fin 1)) hi rfl
    · exact concatenate_apply_piece 1 (pieces y0 y1 y2 y3 y4 y5 y6 y7 y8 y9 y10) concatenates_S16384x1024_S16384x1_S16384x1_S16384x1_S16384x1_S16384x1_S16384x1_S16384x1_S16384x1_S16384x1_S16384x1_S16384x1034_d1 _ 10 (show 10 < 11 by decide)
        S16384x1 y10 rfl rfl 1033 rfl (ix2 b (0 : Fin 1)) hi rfl

/-- The joined vector at row `b`: the final state's row with the ten features behind it. -/
private theorem read_v51 (x0 x1 x2 : Rows) (x3 : Vec) (x4 : Scal) (b : Fin 16384) (k : Fin 1034) :
    val_main_v51 (F := Ideal) x0 x1 x2 x3 x4 (ix2 b k)
      = joined (fun k => x0 (ix2 b k))
          (normFeat (fun k => x1 (ix2 b k)) (fun k => x2 (ix2 b k)) (fun k => x0 (ix2 b k)) (fun k => x3 (ix1 k)) (x4 ix0)) k := by
  unfold val_main_v51
  refine (concat_read x0 _ _ _ _ _ _ _ _ _ _ b k).trans ?_
  rw [f17, f21, f41, f45, f47, f48, f49, f50, f28, f35]
  rfl

/-! ### The two layers -/

private theorem hid_v57 (x0 x1 x2 : Rows) (x3 : Vec) (x4 : Scal) (x5 : (⟨S1034x1034, .f32⟩ : BufTy).Contents (Elt Ideal))
    (x6 : (⟨S1034, .f32⟩ : BufTy).Contents (Elt Ideal)) (b : Fin 16384) (j : Fin 1034) :
    val_main_v57 (F := Ideal) x0 x1 x2 x3 x4 x5 x6 (ix2 b j)
      = hidJoined (joined (fun k => x0 (ix2 b k))
          (normFeat (fun k => x1 (ix2 b k)) (fun k => x2 (ix2 b k)) (fun k => x0 (ix2 b k)) (fun k => x3 (ix1 k)) (x4 ix0)))
          (fun j k => x5 (ix2 j k)) (fun j => x6 (ix1 j)) j := by
  have el : ∀ k : Fin 1034, lidx_main_v53 (ix2 b j) k = ix2 b k := fun k =>
    funext fun a => Fin.ext (by match a with | ⟨0, _⟩ => rfl | ⟨1, _⟩ => rfl)
  have er : ∀ k : Fin 1034, idx_main_v52 (ridx_main_v53 (ix2 b j) k) = ix2 j k := fun k =>
    funext fun a => Fin.ext (by match a with | ⟨0, _⟩ => rfl | ⟨1, _⟩ => rfl)
  have e6 : idx_main_v54 (idx_main_v55 (ix2 b j)) = ix1 j :=
    funext fun a => Fin.ext (by match a with | ⟨0, _⟩ => rfl)
  rw [val_main_v57_apply, val_main_v56_apply, val_main_v53_apply, val_main_v55_apply, val_main_v54_apply, e6,
    val_main_call7_v0_apply, val_main_call7_cst_apply]
  simp only [el, val_main_v52_apply, er, read_v51, Ideal.ofBits_def, Ideal.ofBits_zero_f32]
  rfl

theorem val_eq (x0 x1 x2 : (⟨S16384x1024, .f32⟩ : BufTy).Contents (Elt Ideal)) (x3 : (⟨S1024, .f32⟩ : BufTy).Contents (Elt Ideal))
    (x4 : (⟨S_, .f32⟩ : BufTy).Contents (Elt Ideal)) (x5 : (⟨S1034x1034, .f32⟩ : BufTy).Contents (Elt Ideal))
    (x6 : (⟨S1034, .f32⟩ : BufTy).Contents (Elt Ideal)) (x7 : (⟨S3x1034, .f32⟩ : BufTy).Contents (Elt Ideal))
    (x8 : (⟨S3, .f32⟩ : BufTy).Contents (Elt Ideal)) (b : Fin 16384) (q : Fin 3) :
    val_main_v62 (F := Ideal) x0 x1 x2 x3 x4 x5 x6 x7 x8 (ix2 b q)
      = Gref (fun b k => x0 (ix2 b k)) (fun b k => x1 (ix2 b k)) (fun b k => x2 (ix2 b k)) (fun k => x3 (ix1 k)) (x4 ix0)
          (fun j k => x5 (ix2 j k)) (fun j => x6 (ix1 j)) (fun c j => x7 (ix2 c j)) (fun c => x8 (ix1 c)) b q := by
  have el : ∀ k : Fin 1034, lidx_main_v59 (ix2 b q) k = ix2 b k := fun k =>
    funext fun a => Fin.ext (by match a with | ⟨0, _⟩ => rfl | ⟨1, _⟩ => rfl)
  have er : ∀ k : Fin 1034, idx_main_v58 (ridx_main_v59 (ix2 b q) k) = ix2 q k := fun k =>
    funext fun a => Fin.ext (by match a with | ⟨0, _⟩ => rfl | ⟨1, _⟩ => rfl)
  have e8 : idx_main_v60 (idx_main_v61 (ix2 b q)) = ix1 q :=
    funext fun a => Fin.ext (by match a with | ⟨0, _⟩ => rfl)
  rw [val_main_v62_apply, val_main_v59_apply, val_main_v61_apply, val_main_v60_apply, e8]
  simp only [el, val_main_v58_apply, er, hid_v57]
  rfl

end Cert.ReferenceIdeal.RefValue

end
-- ==== Proof.Consts.lean ====
/-
  The four float constants of the two programs as the real numbers their bit patterns denote.
-/
import proofs.«405241_j66417374265586_3_alg».proof.Proof.Spec

noncomputable section

namespace Cert.Nli

open Idealize.ShloMosaic

/-- The pattern 0x3F800000 denotes 1. -/
theorem c1_eq : c1 = ((1 : ℝ) : EReal) := by
  simp [Ideal.ofBits, Ideal.ieee, -EReal.coe_mul]; norm_num

/-- The pattern 0x3F000000 denotes 1/2. -/
theorem ch_eq : ch = ((1 / 2 : ℝ) : EReal) := by
  simp [Ideal.ofBits, Ideal.ieee, -EReal.coe_mul]; norm_num

/-- The pattern 0x40000000 denotes 2. -/
theorem c2_eq : c2 = ((2 : ℝ) : EReal) := by
  simp [Ideal.ofBits, Ideal.ieee, -EReal.coe_mul]; norm_num

/-- The clamp 0x2B8CBCCC denotes a positive real number. -/
theorem cE_pos : ∃ e : ℝ, 0 < e ∧ cE = (e : EReal) := by
  simp [Ideal.ofBits, Ideal.ieee, -EReal.coe_mul]

end Cert.Nli

end
-- ==== Proof.Algebra.lean ====
/-
  The two spellings of a result row are one function when the premise vector, the hypothesis vector, the neutral
  direction and its scale are real numbers.
-/
import proofs.«405241_j66417374265586_3_alg».proof.Proof.Spec
import proofs.«405241_j66417374265586_3_alg».proof.Proof.Consts
import Mathlib.Data.EReal.Operations
import Mathlib.Data.EReal.Inv
import Mathlib.Analysis.SpecialFunctions.Sqrt
import Mathlib.Algebra.BigOperators.Fin
import Mathlib.Algebra.BigOperators.Ring.Finset
import Mathlib.Algebra.Order.BigOperators.Group.Finset
import Mathlib.Tactic.Ring
import Mathlib.Tactic.Linarith
import Mathlib.Tactic.NormNum

noncomputable section

namespace Cert.Nli

open Idealize.ShloMosaic

/-! ### Sums, inner products and norms of real vectors -/

/-- A finite sum of real numbers, read as an extended real, is the sum of the summands read as extended reals. -/
private theorem coe_sum {ι : Type} (t : Finset ι) (f : ι → ℝ) :
    ((∑ i ∈ t, f i : ℝ) : EReal) = ∑ i ∈ t, (f i : EReal) := by
  classical
  refine Finset.induction_on t (by simp) ?_
  intro a t ha ih
  rw [Finset.sum_insert ha, Finset.sum_insert ha, EReal.coe_add, ih]

/-- The inner product of two real vectors is the real inner product. -/
private theorem dot_real {x y : Row} {xr yr : Fin 1024 → ℝ} (hx : ∀ k, x k = (xr k : EReal))
    (hy : ∀ k, y k = (yr k : EReal)) : dot x y = ((∑ k, xr k * yr k : ℝ) : EReal) := by
  unfold dot
  rw [coe_sum]
  exact Finset.sum_congr rfl (fun k _ => by rw [hx k, hy k, EReal.coe_mul])

/-- A real inner square is not negative. -/
private theorem sumsq_nonneg (xr : Fin 1024 → ℝ) : 0 ≤ ∑ k, xr k * xr k :=
  Finset.sum_nonneg (fun k _ => mul_self_nonneg (xr k))

/-- The norm of a real vector is the real square root of its inner square. -/
private theorem nrm_real {x : Row} {xr : Fin 1024 → ℝ} (hx : ∀ k, x k = (xr k : EReal)) :
    nrm x = ((Real.sqrt (∑ k, xr k * xr k) : ℝ) : EReal) := by
  unfold nrm
  rw [dot_real hx hx, Ideal.sqrt_coe, if_neg (not_lt.2 (sumsq_nonneg xr))]

/-- The clamped norm of a real vector is a positive real number. -/
private theorem den_real {x : Row} {xr : Fin 1024 → ℝ} (hx : ∀ k, x k = (xr k : EReal)) {e : ℝ} (he : 0 < e)
    (hcE : cE = (e : EReal)) : ∃ a : ℝ, 0 < a ∧ den x = (a : EReal) := by
  refine ⟨max (Real.sqrt (∑ k, xr k * xr k)) e, lt_max_of_lt_right he, ?_⟩
  unfold den
  rw [nrm_real hx, hcE]
  exact (EReal.coe_strictMono.monotone.map_max).symm

/-- A real vector over its clamped norm, entry by entry. -/
private theorem normed_real {x : Row} {xr : Fin 1024 → ℝ} (hx : ∀ k, x k = (xr k : EReal)) {a : ℝ} (ha : a ≠ 0)
    (hd : den x = (a : EReal)) (k : Fin 1024) : normed x k = ((xr k / a : ℝ) : EReal) := by
  show Ideal.div (x k) (den x) = _
  rw [hd, Ideal.div_coe ha, hx k, ← EReal.coe_mul, mul_one_div]

/-- The reciprocal of the clamped norm. -/
private theorem inv_real {x : Row} {a : ℝ} (ha : a ≠ 0) (hd : den x = (a : EReal)) :
    inv x = ((1 / a : ℝ) : EReal) := by
  show Ideal.div c1 (den x) = _
  rw [hd, Ideal.div_coe ha, c1_eq, ← EReal.coe_mul, one_mul]

/-! ### The ten features -/

/-- The ten features agree. -/
theorem rawFeat_eq_normFeat (x y z n : Row) (s : EReal) (hx : ∀ k, IsReal (x k)) (hy : ∀ k, IsReal (y k))
    (hn : ∀ k, IsReal (n k)) (hs : IsReal s) :
    rawFeat x y z (scaledNormed n s) = normFeat x y z n s := by
  have hx' : ∀ k, ∃ r : ℝ, x k = (r : EReal) := hx
  have hy' : ∀ k, ∃ r : ℝ, y k = (r : EReal) := hy
  have hn' : ∀ k, ∃ r : ℝ, n k = (r : EReal) := hn
  choose xr hxr using hx'
  choose yr hyr using hy'
  choose nr hnr using hn'
  obtain ⟨sr, rfl⟩ := hs
  obtain ⟨e, he, hcE⟩ := cE_pos
  obtain ⟨a, ha, hda⟩ := den_real hxr he hcE
  obtain ⟨b, hb, hdb⟩ := den_real hyr he hcE
  obtain ⟨d, hd, hdd⟩ := den_real hnr he hcE
  have hnx := normed_real hxr ha.ne' hda
  have hny := normed_real hyr hb.ne' hdb
  have hnn := normed_real hnr hd.ne' hdd
  have hix := inv_real ha.ne' hda
  have hiy := inv_real hb.ne' hdb
  -- the cosine: (∑ xₖ yₖ) · (1/a) · (1/b) = ∑ (xₖ/a) (yₖ/b)
  have hcos : dot x y * inv x * inv y = dot (normed x) (normed y) := by
    rw [dot_real hxr hyr, hix, hiy, dot_real hnx hny, ← EReal.coe_mul, ← EReal.coe_mul]
    congr 1
    rw [Finset.sum_mul, Finset.sum_mul]
    exact Finset.sum_congr rfl (fun k _ => by ring)
  -- its opposite: ∑ (-(xₖ/a)) (yₖ/b) = 0 - ∑ (xₖ/a) (yₖ/b)
  have hneg : dot (fun k => -normed x k) (normed y) = 0 - dot (normed x) (normed y) := by
    rw [dot_real (x := fun k => -normed x k) (xr := fun k => -(xr k / a))
        (fun k => by rw [hnx k, EReal.coe_neg]) hny,
      dot_real hnx hny, ← EReal.coe_zero, ← EReal.coe_sub]
    congr 1
    rw [zero_sub, ← Finset.sum_neg_distrib]
    exact Finset.sum_congr rfl (fun k _ => by ring)
  -- the distance: ∑ xₖ² + ∑ yₖ² - 2 ∑ xₖ yₖ = ∑ (yₖ - xₖ)², which is not negative
  have hdist : Ideal.sqrt (max (dot x x + dot y y - c2 * dot x y) 0) = nrm (fun k => y k - x k) := by
    have key : (∑ k, xr k * xr k) + (∑ k, yr k * yr k) - 2 * (∑ k, xr k * yr k)
        = ∑ k, (yr k - xr k) * (yr k - xr k) := by
      rw [Finset.mul_sum, ← Finset.sum_add_distrib, ← Finset.sum_sub_distrib]
      exact Finset.sum_congr rfl (fun k _ => by ring)
    rw [nrm_real (x := fun k => y k - x k) (xr := fun k => yr k - xr k)
        (fun k => by rw [hyr k, hxr k, EReal.coe_sub]),
      dot_real hxr hxr, dot_real hyr hyr, dot_real hxr hyr, c2_eq, ← EReal.coe_mul, ← EReal.coe_add,
      ← EReal.coe_sub, key, ← EReal.coe_zero, ← EReal.coe_strictMono.monotone.map_max,
      max_eq_left (sumsq_nonneg (fun k => yr k - xr k)), Ideal.sqrt_coe,
      if_neg (not_lt.2 (sumsq_nonneg (fun k => yr k - xr k)))]
  -- the scaled cosines: (∑ xₖ (s (nₖ/d))) · (1/a) = s ∑ (xₖ/a) (nₖ/d)
  have hw : ∀ k, scaledNormed n (sr : EReal) k = ((sr * (nr k / d) : ℝ) : EReal) := fun k => by
    show (sr : EReal) * normed n k = _
    rw [hnn k, EReal.coe_mul]
  have h8 : dot x (scaledNormed n (sr : EReal)) * inv x = (sr : EReal) * dot (normed x) (normed n) := by
    rw [dot_real hxr hw, hix, dot_real hnx hnn, ← EReal.coe_mul, ← EReal.coe_mul]
    congr 1
    rw [Finset.sum_mul, Finset.mul_sum]
    exact Finset.sum_congr rfl (fun k _ => by ring)
  have h9 : dot y (scaledNormed n (sr : EReal)) * inv y = (sr : EReal) * dot (normed y) (normed n) := by
    rw [dot_real hyr hw, hiy, dot_real hny hnn, ← EReal.coe_mul, ← EReal.coe_mul]
    congr 1
    rw [Finset.sum_mul, Finset.mul_sum]
    exact Finset.sum_congr rfl (fun k _ => by ring)
  unfold rawFeat normFeat
  rw [hcos, hneg, hdist, h8, h9]

/-! ### The first layer -/

/-- An entry of the joined vector before position 1024 is an entry of the row. -/
private theorem joined_left (z : Row) (f : Fin 10 → EReal) (k : Fin 1034) (h : k.val < 1024) :
    joined z f k = z ⟨k.val, h⟩ := by
  unfold joined
  exact dif_pos h

/-- An entry of the joined vector from position 1024 on is a feature. -/
private theorem joined_right (z : Row) (f : Fin 10 → EReal) (k : Fin 1034) (h : ¬ k.val < 1024) :
    joined z f k = f ⟨k.val - 1024, by have := k.isLt; omega⟩ := by
  unfold joined
  exact dif_neg h

/-- The first layer: the contraction over the joined vector is the sum of the two contractions. -/
theorem hidSplit_eq_hidJoined (z : Row) (f : Fin 10 → EReal) (W : Fin 1034 → Fin 1034 → EReal) (B : Fin 1034 → EReal) :
    hidSplit z f (fun k j => W j ⟨k.val, by have := k.isLt; omega⟩) (fun k j => W j ⟨1024 + k.val, by have := k.isLt; omega⟩) B
      = hidJoined (joined z f) W B := by
  funext j
  unfold hidSplit hidJoined
  have hsum : (∑ k : Fin 1034, joined z f k * W j k)
      = (∑ k : Fin 1024, z k * W j ⟨k.val, by have := k.isLt; omega⟩)
        + ∑ k : Fin 10, f k * W j ⟨1024 + k.val, by have := k.isLt; omega⟩ := by
    refine (Fin.sum_univ_add (a := 1024) (b := 10) (fun k => joined z f k * W j k)).trans ?_
    refine congrArg₂ (· + ·) ?_ ?_
    · refine Finset.sum_congr rfl (fun k _ => ?_)
      have hk : (Fin.castAdd 10 k : Fin 1034).val < 1024 := k.isLt
      rw [joined_left z f _ hk]
      rfl
    · refine Finset.sum_congr rfl (fun k _ => ?_)
      have hk : ¬ (Fin.natAdd 1024 k : Fin 1034).val < 1024 := by
        show ¬ (1024 + k.val < 1024)
        omega
      rw [joined_right z f _ hk]
      have hf : (⟨(Fin.natAdd 1024 k : Fin 1034).val - 1024, by have := k.isLt; show 1024 + k.val - 1024 < 10; omega⟩ : Fin 10) = k :=
        Fin.ext (by show 1024 + k.val - 1024 = k.val; omega)
      rw [hf]
      rfl
  rw [hsum]

/-- The whole result. -/
theorem Gker_eq_Gref (H VP VH : Fin 16384 → Row) (N : Row) (s : EReal) (W1 : Fin 1034 → Fin 1034 → EReal)
    (B1 : Fin 1034 → EReal) (W2 : Fin 3 → Fin 1034 → EReal) (B2 : Fin 3 → EReal)
    (hVP : ∀ b k, IsReal (VP b k)) (hVH : ∀ b k, IsReal (VH b k)) (hN : ∀ k, IsReal (N k)) (hs : IsReal s) :
    Gker H VP VH N s W1 B1 W2 B2 = Gref H VP VH N s W1 B1 W2 B2 := by
  funext b
  unfold Gker Gref rowSplit
  rw [rawFeat_eq_normFeat (VP b) (VH b) (H b) N s (hVP b) (hVH b) hN hs, hidSplit_eq_hidJoined]

end Cert.Nli

end
-- ==== Proof.Finite.lean ====
/-
  From the precondition — every float input compares below +∞ in absolute value — to: the entries of the premise
  vectors, the hypothesis vectors, the neutral direction and its scale are real numbers.
-/
import proofs.«405241_j66417374265586_3_alg».proof.Proof.Gen.Pre_finite_inputs
import proofs.«405241_j66417374265586_3_alg».proof.Proof.Spec
import Idealize.ShloMosaic.Lib.ReduceAll
import Idealize.ShloMosaic.Lib.ValueIdx

noncomputable section

namespace Cert.Nli

open Idealize.ShloMosaic Idealize.ShloMosaic.ValueIdx Cert.Pre_finite_inputs

/-- An extended real whose absolute value `max x (-x)` compares below `+∞` is a real number: `⊥` and `⊤` both have
    absolute value `⊤`. -/
private theorem isReal_of_test (x : EReal)
    (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  have hlt : max x (-x) < ⊤ := by
    by_contra hc
    simp [Ideal.cmp, hc] at h
  induction x using EReal.rec with
  | bot => simp at hlt
  | top => simp at hlt
  | coe r => exact ⟨r, rfl⟩

/-- The shape without axes has one index. -/
private instance : Subsingleton S_.Idx := ⟨fun a b => funext fun d => d.elim0⟩

theorem real_of_pre (a0 a1 a2 : FVec Ideal S16384x1024 .f32) (a3 : FVec Ideal S1024 .f32) (a4 : FVec Ideal S_ .f32)
    (a5 : FVec Ideal S1034x1034 .f32) (a6 : FVec Ideal S1034 .f32) (a7 : FVec Ideal S3x1034 .f32) (a8 : FVec Ideal S3 .f32)
    (h : Cert.Pre_finite_inputs.fn (F := Ideal) a0 a1 a2 a3 a4 a5 a6 a7 a8 = fun _ => 1#1) :
    (∀ i, IsReal (a1 i)) ∧ (∀ i, IsReal (a2 i)) ∧ (∀ i, IsReal (a3 i)) ∧ IsReal (a4 ix0) := by
  -- the precondition at its one index: a conjunction of nine tests, nested to the left
  have h0 := congrFun h ValueIdx.ix0
  dsimp only [Cert.Pre_finite_inputs.fn, fn_part1, fn_part2] at h0
  -- peel the conjunction from the right: the tests of a8, a7, a6, a5 are not needed
  obtain ⟨h0, -⟩ := IntOp.andi_eq_one.1 (show IntOp.andi _ _ = 1#1 from h0)
  obtain ⟨h0, -⟩ := IntOp.andi_eq_one.1 (show IntOp.andi _ _ = 1#1 from h0)
  obtain ⟨h0, -⟩ := IntOp.andi_eq_one.1 (show IntOp.andi _ _ = 1#1 from h0)
  obtain ⟨h0, -⟩ := IntOp.andi_eq_one.1 (show IntOp.andi _ _ = 1#1 from h0)
  obtain ⟨h0, h4⟩ := IntOp.andi_eq_one.1 (show IntOp.andi _ _ = 1#1 from h0)
  obtain ⟨h0, h3⟩ := IntOp.andi_eq_one.1 (show IntOp.andi _ _ = 1#1 from h0)
  obtain ⟨h0, h2⟩ := IntOp.andi_eq_one.1 (show IntOp.andi _ _ = 1#1 from h0)
  obtain ⟨-, h1⟩ := IntOp.andi_eq_one.1 (show IntOp.andi _ _ = 1#1 from h0)
  -- a conjunction over all entries that is true is true at each entry; there the test says |x| < +∞
  refine ⟨fun i => ?_, fun i => ?_, fun i => ?_, ?_⟩
  · exact isReal_of_test (a1 i) (Host.reduce_andi_all _ _ _ _ ix0 h1 i)
  · exact isReal_of_test (a2 i) (Host.reduce_andi_all _ _ _ _ ix0 h2 i)
  · exact isReal_of_test (a3 i) (Host.reduce_andi_all _ _ _ _ ix0 h3 i)
  · exact isReal_of_test (a4 ix0) (Host.reduce_andi_all _ _ _ _ ix0 h4 ix0)

end Cert.Nli

end
-- ==== Proof.lean ====
/-
  Both programs compute, for each of 16384 batch rows, ten scalar features of the row's premise and hypothesis vectors
  (cosine, its negative, two affine images of it, the distance, the norms, the scaled cosines against a neutral
  direction), join them behind the row's final state and send the 1034 entries through a rectified layer and a second
  layer onto three entries (Proof/Spec.lean). The kernel's program forms the features from raw inner products and
  reciprocal norms and splits the first layer's contraction in two; the reference normalises the vectors first and
  contracts once. Over real inputs the two are one function (Proof/Algebra.lean); the precondition makes the inputs
  real (Proof/Finite.lean). The kernel's result array is read off its run block by block (Proof/KerValue.lean over
  Proof/KerBody.lean and Proof/KerHost.lean), the reference's result off its run operation by operation
  (Proof/RefValue.lean).
-/
import proofs.«405241_j66417374265586_3_alg».proof.Defs
import proofs.«405241_j66417374265586_3_alg».proof.Proof.Gen.Kernel
import proofs.«405241_j66417374265586_3_alg».proof.Proof.Gen.Kernel.Skeleton
import proofs.«405241_j66417374265586_3_alg».proof.Proof.Gen.Kernel.Launch
import proofs.«405241_j66417374265586_3_alg».proof.Proof.Gen.Kernel.Points
import proofs.«405241_j66417374265586_3_alg».proof.Proof.Gen.Kernel.Frame
import proofs.«405241_j66417374265586_3_alg».proof.Proof.Gen.KernelIdeal
import proofs.«405241_j66417374265586_3_alg».proof.Proof.Gen.KernelIdeal.Skeleton
import proofs.«405241_j66417374265586_3_alg».proof.Proof.Gen.KernelIdeal.Launch
import proofs.«405241_j66417374265586_3_alg».proof.Proof.Gen.KernelIdeal.Points
import proofs.«405241_j66417374265586_3_alg».proof.Proof.Gen.KernelIdeal.Frame
import proofs.«405241_j66417374265586_3_alg».proof.Proof.Gen.ReferenceIdeal
import proofs.«405241_j66417374265586_3_alg».proof.Proof.Gen.Pre_finite_inputs
import proofs.«405241_j66417374265586_3_alg».proof.Proof.Gen.KernelIdeal.Value
import proofs.«405241_j66417374265586_3_alg».proof.Proof.Gen.ReferenceIdeal.Run
import proofs.«405241_j66417374265586_3_alg».proof.Proof.Gen.ReferenceIdeal.Read
import proofs.«405241_j66417374265586_3_alg».proof.Proof.KerValue
import proofs.«405241_j66417374265586_3_alg».proof.Proof.RefValue
import proofs.«405241_j66417374265586_3_alg».proof.Proof.Algebra
import proofs.«405241_j66417374265586_3_alg».proof.Proof.Finite
import Idealize.ShloMosaic.Adequacy
import Idealize.ShloMosaic.Init

noncomputable section

namespace Cert.Proof

open Idealize.ShloMosaic Idealize.ShloMosaic.ValueIdx Idealize.SL.Sem

/-- The kernel's program runs, faults nowhere and leaves its arguments as they were. -/
theorem frame_k : Cert.frame_Kernel := fun m ρ _ => Cert.Kernel.Gen.frame m ρ

/-- The same at the extended reals. -/
theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the nine arguments, of which the premise vectors, the hypothesis vectors, the neutral
    direction and its scale are real by the precondition, the kernel's result array (the second spelling of the
    specification, row by row) and the reference's (the first spelling) are equal entry by entry. -/
theorem algebraic : Cert.algebraic_KernelIdeal_ReferenceIdeal := by
  intro m ρ m' ρ' hpre hagree
  refine ⟨fun c => (Cert.KernelIdeal.Gen.dats m 0 c).arrAt 9 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨r1, r2, r3, r4⟩ := Cert.Nli.real_of_pre _ _ _ _ _ _ _ _ _ (hpre c)
  rw [Cert.ReferenceIdeal.Read.val_main_v62_eq, a0, a1, a2, a3, a4, a5, a6, a7, a8]
  refine Eq.trans ?_ (Cert.KernelIdeal.KerValue.final m c).symm
  funext i
  obtain ⟨b, q, rfl⟩ : ∃ (b : Fin 16384) (q : Fin 3), (i : Cert.KernelIdeal.S16384x3.Idx) = ix2 b q := ⟨i 0, i 1, eq_ix2 i⟩
  rw [Cert.ReferenceIdeal.RefValue.val_eq]
  unfold Cert.KernelIdeal.KerValue.Gk
  rw [Cert.Nli.Gker_eq_Gref _ _ _ _ _ _ _ _ _ (fun b k => r1 _) (fun b k => r2 _) (fun k => r3 _) r4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
